-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part2 {F : FTy → Type} [FloatOps F] (main_arg1 : IVec S2x1000000 32) (main_v33 : IVec S_ 1) : IVec S_ 1 :=
  let main_c_12 : IVec S_ 32 := constantI S_ 32 0#32
  let main_v34 : IVec S2x1000000 32 := broadcastInDim S2x1000000 ![] bcast_S_S2x1000000 main_c_12
  let main_v35 : IVec S2x1000000 1 := cmpi .sge main_arg1 main_v34
  let main_c_13 : IVec S_ 32 := constantI S_ 32 100000#32
  let main_v36 : IVec S2x1000000 32 := broadcastInDim S2x1000000 ![] bcast_S_S2x1000000 main_c_13
  let main_v37 : IVec S2x1000000 1 := cmpi .slt main_arg1 main_v36
  let main_v38 : IVec S2x1000000 1 := andi main_v35 main_v37
  let main_c_14 : IVec S_ 1 := constantI S_ 1 1#1
  let main_v39 : IVec S_ 1 := (fun x v => Host.reduce IntOp.andi x v reducesTo_S2x1000000_S_d0_1 h_S_) main_v38 main_c_14
  let main_v40 : IVec S_ 1 := andi main_v33 main_v39
  main_v40

def fn_part1 {F : FTy → Type} [FloatOps F] (main_arg1 : IVec S2x1000000 32) (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1000000 32) (main_arg2 : FVec F S256x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_arg6 main_arg7 main_v13 main_v16
-- ==== Kernel.lean ====
abbrev S100000x128 : Shape := ⟨2, ![100000, 128]⟩
abbrev S2x1000000 : Shape := ⟨2, ![2, 1000000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S128x64 : Shape := ⟨2, ![128, 64]⟩
abbrev S1x64 : Shape := ⟨2, ![1, 64]⟩
abbrev S1x32 : Shape := ⟨2, ![1, 32]⟩
abbrev S1x1 : Shape := ⟨2, ![1, 1]⟩
abbrev S8000x128 : Shape := ⟨2, ![8000, 128]⟩
abbrev S8000x1 : Shape := ⟨2, ![8000, 1]⟩
abbrev S2000x128 : Shape := ⟨2, ![2000, 128]⟩
abbrev S2000x64 : Shape := ⟨2, ![2000, 64]⟩
abbrev S2000x32 : Shape := ⟨2, ![2000, 32]⟩
abbrev S2000x1 : Shape := ⟨2, ![2000, 1]⟩

abbrev nBuf : Space → Nat
  | .hbm => 28
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S100000x128, .bf16⟩
  | .hbm, ⟨13, _⟩ => ⟨S1000000x1, .i32⟩
  | .hbm, ⟨14, _⟩ => ⟨S1000000x128, .bf16⟩
  | .hbm, ⟨15, _⟩ => ⟨S1000000x1, .i32⟩
  | .hbm, ⟨16, _⟩ => ⟨S1000000x128, .bf16⟩
  | .hbm, ⟨17, _⟩ => ⟨S128x64, .f32⟩
  | .hbm, ⟨18, _⟩ => ⟨S128x64, .bf16⟩
  | .hbm, ⟨19, _⟩ => ⟨S128x64, .f32⟩
  | .hbm, ⟨20, _⟩ => ⟨S128x64, .bf16⟩
  | .hbm, ⟨21, _⟩ => ⟨S64x32, .bf16⟩
  | .hbm, ⟨22, _⟩ => ⟨S32x1, .bf16⟩
  | .hbm, ⟨23, _⟩ => ⟨S1x64, .f32⟩
  | .hbm, ⟨24, _⟩ => ⟨S1x32, .f32⟩
  | .hbm, ⟨25, _⟩ => ⟨S1x1, .f32⟩
  | .hbm, ⟨26, _⟩ => ⟨S1000000x1, .f32⟩
  | .hbm, ⟨27, _⟩ => ⟨S1000000, .f32⟩
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S128x64, .bf16⟩
  | .local _ .vmem, ⟨5, _⟩ => ⟨S128x64, .bf16⟩
  | .local _ .vmem, ⟨6, _⟩ => ⟨S1x64, .f32⟩
  | .local _ .vmem, ⟨7, _⟩ => ⟨S64x32, .bf16⟩
  | .local _ .vmem, ⟨8, _⟩ => ⟨S1x32, .f32⟩
  | .local _ .vmem, ⟨9, _⟩ => ⟨S32x1, .bf16⟩
  | .local _ .vmem, ⟨10, _⟩ => ⟨S1x1, .f32⟩
  | .local _ .vmem, ⟨11, _⟩ => ⟨S8000x1, .f32⟩
  | .local _ .vmem, ⟨12, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![125], ![false]⟩

@[reducible] def k0_t1_loop : Scf.Loop 32 :=
  let c0_i32 : BitVec 32 := 0#32
  let c4_i32 : BitVec 32 := 4#32
  let v14 : BitVec 32 := Scalar.addi c0_i32 c4_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c2000_i32 : BitVec 32 := 2000#32
  let v15 : BitVec 32 := Scalar.muli arg11 c2000_i32
  v15
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c2000_i32 : BitVec 32 := 2000#32
  let v15 : BitVec 32 := Scalar.muli arg11 c2000_i32
  let v16 : BitVec 32 := v15
  let v17 : Index := Scalar.indexCast v16
  let c0_14 : Index := 0#32
  ![v17.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c2000_i32 : BitVec 32 := 2000#32
  let v15 : BitVec 32 := Scalar.muli arg11 c2000_i32
  let v16 : BitVec 32 := v15
  let v41 : Index := Scalar.indexCast v16
  let c0_21 : Index := 0#32
  ![v41.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bitsLt_bf16_f32 : FTy.bits .bf16 < FTy.bits .f32
  bcast_S1000000_S1000000x1_0 : S1000000.BroadcastsInDim S1000000x1 (![0] : Fin 1 → Fin S1000000x1.rank)
  slices_S256x64_S128x64_0_0 : S256x64.Slices ![0, 0] S128x64
  slices_S256x64_S128x64_128_0 : S256x64.Slices ![128, 0] S128x64
  shapeCasts_S64_S1x64 : S64.ShapeCasts S1x64
  shapeCasts_S32_S1x32 : S32.ShapeCasts S1x32
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S2000x128 : 0 < S2000x128.numel
  shapeCasts_S2000x128_S2000x128 : S2000x128.ShapeCasts S2000x128
  broadcasts_S1x64_S2000x64 : S1x64.Broadcasts S2000x64
  broadcasts_S1x32_S2000x32 : S1x32.Broadcasts S2000x32
  broadcasts_S1x1_S2000x1 : S1x1.Broadcasts S2000x1
  h_S2000x1 : 0 < S2000x1.numel
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  dot_S2000x128_S128x64_S2000x64_1_0_0_1_n_n_wf : DotDims.WF S2000x128 S128x64 S2000x64 [1] [0] [0] [1] [] []
  dot_S2000x64_S64x32_S2000x32_1_0_0_1_n_n_wf : DotDims.WF S2000x64 S64x32 S2000x32 [1] [0] [0] [1] [] []
  dot_S2000x32_S32x1_S2000x1_1_0_0_1_n_n_wf : DotDims.WF S2000x32 S32x1 S2000x1 [1] [0] [0] [1] [] []
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S2000x128.size a ≤ S8000x128.size a
  k0_off2_inb : ∀ k0_t1 : Fin k0_t1_loop.trips, ∀ a, (k0_off2 k0_t1) a + S2000x1.size a ≤ S8000x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1000000x128.size a
  hwx0_0 : ∀ i : grid0.Coords, EltTy.bits .bf16 = 32 ∨ (Rect.block (s := S1000000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1000000x128.size a
  hwx0_1 : ∀ i : grid0.Coords, EltTy.bits .bf16 = 32 ∨ (Rect.block (s := S1000000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .bf16 = 32 ∨ (Rect.block (s := S64x32) S64x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .bf16 = 32 ∨ (Rect.block (s := S32x1) S32x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x1.size a ≤ S1000000x1.size a
  hwx0_9 : ∀ i : grid0.Coords, EltTy.bits .f32 = 32 ∨ (Rect.block (s := S1000000x1) S8000x1.size (cc0_transform_9 i) (hinb0_9 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_v5) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S8000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1000000x256 : Shape := ⟨2, ![1000000, 256]⟩
abbrev S1000000x64 : Shape := ⟨2, ![1000000, 64]⟩
abbrev S1x64 : Shape := ⟨2, ![1, 64]⟩
abbrev S1000000x32 : Shape := ⟨2, ![1000000, 32]⟩
abbrev S1x32 : Shape := ⟨2, ![1, 32]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x128, .f32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x128, .f32⟩
  | .hbm, ⟨30, _⟩ => ⟨S1000000x256, .f32⟩
  | .hbm, ⟨31, _⟩ => ⟨S1000000x64, .f32⟩
  | .hbm, ⟨32, _⟩ => ⟨S1x64, .f32⟩
  | .hbm, ⟨33, _⟩ => ⟨S1000000x64, .f32⟩
  | .hbm, ⟨34, _⟩ => ⟨S1000000x64, .f32⟩
  | .hbm, ⟨35, _⟩ => ⟨S_, .f32⟩
  | .hbm, ⟨36, _⟩ => ⟨S1000000x64, .f32⟩
  | .hbm, ⟨37, _⟩ => ⟨S1000000x64, .f32⟩
  | .hbm, ⟨38, _⟩ => ⟨S1000000x32, .f32⟩
  | .hbm, ⟨39, _⟩ => ⟨S1x32, .f32⟩
  | .hbm, ⟨40, _⟩ => ⟨S1000000x32, .f32⟩
  | .hbm, ⟨41, _⟩ => ⟨S1000000x32, .f32⟩
  | .hbm, ⟨42, _⟩ => ⟨S_, .f32⟩
  | .hbm, ⟨43, _⟩ => ⟨S1000000x32, .f32⟩
  | .hbm, ⟨44, _⟩ => ⟨S1000000x32, .f32⟩
  | .hbm, ⟨45, _⟩ => ⟨S1000000x1, .f32⟩
  | .hbm, ⟨46, _⟩ => ⟨S1x1, .f32⟩
  | .hbm, ⟨47, _⟩ => ⟨S1000000x1, .f32⟩
  | .hbm, ⟨48, _⟩ => ⟨S1000000x1, .f32⟩
  | .hbm, ⟨49, _⟩ => ⟨S1000000, .f32⟩
  | .hbm, ⟨50, _⟩ => ⟨S1000000, .f32⟩
  | .hbm, ⟨51, _⟩ => ⟨S1000000, .f32⟩
  | .hbm, ⟨52, _⟩ => ⟨S_, .f32⟩
  | .hbm, ⟨53, _⟩ => ⟨S1000000, .f32⟩
  | .hbm, ⟨54, _⟩ => ⟨S1000000, .f32⟩
  | .hbm, ⟨55, _⟩ => ⟨S_, .f32⟩
  | .hbm, ⟨56, _⟩ => ⟨S1000000, .f32⟩
  | .hbm, ⟨57, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  concatenates_S1000000x128_S1000000x128_S1000000x256_d1 : Shape.Concatenates [S1000000x128, S1000000x128] S1000000x256 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x128_S1000000x1_S1000000x128_1_0_n_n_0_1_1128_wf : GatherDims.WF S100000x128 S1000000x1 S1000000x128 [1] [0] [] [0] [] 1 ![1, 128]
  dot_S1000000x256_S256x64_S1000000x64_1_0_0_1_n_n_wf : DotDims.WF S1000000x256 S256x64 S1000000x64 [1] [0] [0] [1] [] []
  dot_S1000000x64_S64x32_S1000000x32_1_0_0_1_n_n_wf : DotDims.WF S1000000x64 S64x32 S1000000x32 [1] [0] [0] [1] [] []
  dot_S1000000x32_S32x1_S1000000x1_1_0_0_1_n_n_wf : DotDims.WF S1000000x32 S32x1 S1000000x1 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf

class Facts : Prop extends Facts₀ where

variable [Facts]
-- ==== Proof.Spec.lean ====
/-
  The link score, as one function of the argument arrays.

  An edge e joins the nodes edge_index[0, e] and edge_index[1, e]. Its score is a three-layer perceptron of the two
  nodes' feature rows: with a, b the two rows (128 features each),
      h₁[j] = max (Σₗ a[l]·W1[l, j] + Σₗ b[l]·W1[128 + l, j] + b1[j]) 0          (64 hidden units)
      h₂[k] = max (Σⱼ h₁[j]·W2[j, k] + b2[k]) 0                                   (32 hidden units)
      score = logistic (Σₖ h₂[k]·W3[k, 0] + b3[0]).
  The first layer is written over the two halves of W1, which is what multiplying the concatenated row (a, b) by W1
  amounts to: a sum over 256 terms is the sum of its first 128 and its last 128 terms, in any commutative monoid
  (sum_halves; no finiteness is needed for it on the extended reals).
  A node id is read as the machine reads it: signed, and clamped into the table (nodeRow).
-/
import Idealize.ShloMosaic.PureOps.Ideal
import Idealize.ShloMosaic.PureOps.Ideal.Laws
import Idealize.ShloMosaic.Lib.ValueIdx

noncomputable section

open scoped BigOperators

namespace Cert.LinkScore

open Idealize.ShloMosaic Idealize.ShloMosaic.ValueIdx

/-- The perceptron's score of one pair of feature rows a, b: the first layer's weights as the two halves w1a, w1b of
    W1, the biases c1, c2, c3 as plain functions. -/
def pairScore (a b : Fin 128 → EReal) (w1a w1b : Fin 128 → Fin 64 → EReal) (c1 : Fin 64 → EReal)
    (w2 : Fin 64 → Fin 32 → EReal) (c2 : Fin 32 → EReal) (w3 : Fin 32 → EReal) (c3 : EReal) : EReal :=
  Ideal.logistic ((∑ k : Fin 32,
    max ((∑ j : Fin 64, max ((∑ l : Fin 128, a l * w1a l j) + (∑ l : Fin 128, b l * w1b l j) + c1 j) 0 * w2 j k) + c2 k) 0
      * w3 k) + c3)

/-- A sum over 256 terms is the sum over the first 128 plus the sum over the last 128. -/
theorem sum_halves {M : Type*} [AddCommMonoid M] (f : Fin 256 → M) :
    ∑ k : Fin 256, f k
      = (∑ l : Fin 128, f ⟨l.val, by omega⟩) + ∑ l : Fin 128, f ⟨128 + l.val, by omega⟩ :=
  Fin.sum_univ_add (a := 128) (b := 128) (fun k : Fin (128 + 128) => f k)

/-- The node a word names: read signed, clamped into the 100000 rows of the table. -/
def nodeRow (w : BitVec 32) : Fin 100000 := ⟨min w.toInt.toNat 99999, by omega⟩

/-- THE SCORES: for every edge, the perceptron's score of its two endpoints' rows. -/
def scores (z : FVec Ideal ⟨2, ![100000, 128]⟩ .f32) (E : IVec ⟨2, ![2, 1000000]⟩ 32)
    (W1 : FVec Ideal ⟨2, ![256, 64]⟩ .f32) (b1 : FVec Ideal ⟨1, ![64]⟩ .f32)
    (W2 : FVec Ideal ⟨2, ![64, 32]⟩ .f32) (b2 : FVec Ideal ⟨1, ![32]⟩ .f32)
    (W3 : FVec Ideal ⟨2, ![32, 1]⟩ .f32) (b3 : FVec Ideal ⟨1, ![1]⟩ .f32) :
    FVec Ideal ⟨1, ![1000000]⟩ .f32 := fun i =>
  pairScore (fun l => z (ix2 (nodeRow (E (ix2 (0 : Fin 2) (i 0)))) l)) (fun l => z (ix2 (nodeRow (E (ix2 (1 : Fin 2) (i 0)))) l))
    (fun l j => W1 (ix2 (⟨l.val, by omega⟩ : Fin 256) j)) (fun l j => W1 (ix2 (⟨128 + l.val, by omega⟩ : Fin 256) j))
    (fun j => b1 (ix1 j)) (fun j k => W2 (ix2 j k)) (fun k => b2 (ix1 k))
    (fun k => W3 (ix2 k (0 : Fin 1))) (b3 (ix1 (0 : Fin 1)))

end Cert.LinkScore

end
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.Payload.lean ====
/-
  The kernel body's arithmetic at one row of a chunk.

  One trip of the body takes 2000 rows of each endpoint block and writes 2000 scores; row p of what it writes is the
  perceptron's score (Spec.lean, pairScore) of row p of the two chunks, with the weights as the body loaded them.
-/
import proofs.«420939_j89644557402729_3_alg».proof.Proof.Gen.KernelIdeal.Skeleton
import proofs.«420939_j89644557402729_3_alg».proof.Proof.Spec
import proofs.«420939_j89644557402729_3_alg».proof.Proof.LibDot
import Idealize.ShloMosaic.Lib.Pipeline.Value
import Idealize.ShloMosaic.Lib.ValueLayout

noncomputable section

open scoped BigOperators

namespace Cert.LinkScore

open Idealize.ShloMosaic Idealize.ShloMosaic.ValueIdx Cert.KernelIdeal Cert.KernelIdeal.Gen

open Cert.Lib.Dot in
/-- The first hidden layer at (p, q): two products into zero accumulators added, the bias row added to every row, the
    maximum with the constant 0, and the rounding to the narrower format, which on the extended reals keeps the value. -/
theorem hidden1_apply {M K N : Nat} (d : DotDims ⟨2, ![M, K]⟩ ⟨2, ![K, N]⟩ ⟨2, ![M, N]⟩) (hd : IsRowsCols d)
    (x y : FVec Ideal ⟨2, ![M, K]⟩ .bf16) (wa wb : FVec Ideal ⟨2, ![K, N]⟩ .bf16) (c : FVec Ideal ⟨2, ![1, N]⟩ .f32)
    (h : (⟨2, ![1, N]⟩ : Shape).Broadcasts ⟨2, ![M, N]⟩) (hb : FTy.bits .bf16 < FTy.bits .f32) (p : Fin M) (q : Fin N) :
    (truncf .bf16 (maximumf (addf (addf (matmul d none x wa (constant ⟨2, ![M, N]⟩ .f32 0x00000000#32))
        (matmul d none y wb (constant ⟨2, ![M, N]⟩ .f32 0x00000000#32))) (broadcastTo ⟨2, ![M, N]⟩ c h))
        (broadcast ⟨2, ![M, N]⟩ (Scalar.ofBits .f32 0x00000000#32))) hb : FVec Ideal ⟨2, ![M, N]⟩ .bf16) (ix2 p q)
      = max ((∑ l : Fin K, x (ix2 p l) * wa (ix2 l q)) + (∑ l : Fin K, y (ix2 p l) * wb (ix2 l q))
          + c (ix2 (0 : Fin 1) q)) 0 := by
  show max (matmul d none x wa (constant ⟨2, ![M, N]⟩ .f32 0x00000000#32) (ix2 p q)
        + matmul d none y wb (constant ⟨2, ![M, N]⟩ .f32 0x00000000#32) (ix2 p q)
        + broadcastTo ⟨2, ![M, N]⟩ c h (ix2 p q)) (Ideal.ofBits .f32 0x00000000#32) = _
  rw [matmul0_rc d hd x wa p q, matmul0_rc d hd y wb p q, broadcastTo_1b_ab_apply c h p q, Ideal.ofBits_zero_f32]

open Cert.Lib.Dot in
/-- A later hidden layer at (p, q): one product into a zero accumulator, the bias row, the maximum with 0, the
    rounding. -/
theorem hidden_apply {M K N : Nat} (d : DotDims ⟨2, ![M, K]⟩ ⟨2, ![K, N]⟩ ⟨2, ![M, N]⟩) (hd : IsRowsCols d)
    (x : FVec Ideal ⟨2, ![M, K]⟩ .bf16) (w : FVec Ideal ⟨2, ![K, N]⟩ .bf16) (c : FVec Ideal ⟨2, ![1, N]⟩ .f32)
    (h : (⟨2, ![1, N]⟩ : Shape).Broadcasts ⟨2, ![M, N]⟩) (hb : FTy.bits .bf16 < FTy.bits .f32) (p : Fin M) (q : Fin N) :
    (truncf .bf16 (maximumf (addf (matmul d none x w (constant ⟨2, ![M, N]⟩ .f32 0x00000000#32))
        (broadcastTo ⟨2, ![M, N]⟩ c h)) (broadcast ⟨2, ![M, N]⟩ (Scalar.ofBits .f32 0x00000000#32))) hb
        : FVec Ideal ⟨2, ![M, N]⟩ .bf16) (ix2 p q)
      = max ((∑ k : Fin K, x (ix2 p k) * w (ix2 k q)) + c (ix2 (0 : Fin 1) q)) 0 := by
  show max (matmul d none x w (constant ⟨2, ![M, N]⟩ .f32 0x00000000#32) (ix2 p q)
        + broadcastTo ⟨2, ![M, N]⟩ c h (ix2 p q)) (Ideal.ofBits .f32 0x00000000#32) = _
  rw [matmul0_rc d hd x w p q, broadcastTo_1b_ab_apply c h p q, Ideal.ofBits_zero_f32]

open Cert.Lib.Dot in
/-- The output layer at (p, q): one product into a zero accumulator, the bias row, the logistic function. -/
theorem output_apply {M K N : Nat} (d : DotDims ⟨2, ![M, K]⟩ ⟨2, ![K, N]⟩ ⟨2, ![M, N]⟩) (hd : IsRowsCols d)
    (x : FVec Ideal ⟨2, ![M, K]⟩ .bf16) (w : FVec Ideal ⟨2, ![K, N]⟩ .bf16) (c : FVec Ideal ⟨2, ![1, N]⟩ .f32)
    (h : (⟨2, ![1, N]⟩ : Shape).Broadcasts ⟨2, ![M, N]⟩) (p : Fin M) (q : Fin N) :
    logistic (addf (matmul d none x w (constant ⟨2, ![M, N]⟩ .f32 0x00000000#32)) (broadcastTo ⟨2, ![M, N]⟩ c h)) (ix2 p q)
      = Ideal.logistic ((∑ k : Fin K, x (ix2 p k) * w (ix2 k q)) + c (ix2 (0 : Fin 1) q)) := by
  show Ideal.logistic (matmul d none x w (constant ⟨2, ![M, N]⟩ .f32 0x00000000#32) (ix2 p q)
        + broadcastTo ⟨2, ![M, N]⟩ c h (ix2 p q)) = _
  rw [matmul0_rc d hd x w p q, broadcastTo_1b_ab_apply c h p q]

/-- Row p of a trip's payload is the score of row p of the two chunks. -/
theorem payload_apply (v0 v2 : Vec Ideal S128x64 .bf16) (v4 : Vec Ideal S1x64 .f32) (v6 : Vec Ideal S64x32 .bf16)
    (v8 : Vec Ideal S1x32 .f32) (v10 : Vec Ideal S32x1 .bf16) (v12 : Vec Ideal S1x1 .f32)
    (v18 v21 : Vec Ideal S2000x128 .bf16) (p : Fin 2000) :
    k0_pay1 (F := Ideal) v0 v2 v4 v6 v8 v10 v12 v18 v21 (ix2 p (0 : Fin 1))
      = pairScore (fun l => v18 (ix2 p l)) (fun l => v21 (ix2 p l)) (fun l j => v0 (ix2 l j)) (fun l j => v2 (ix2 l j))
          (fun j => v4 (ix2 (0 : Fin 1) j)) (fun j k => v6 (ix2 j k)) (fun k => v8 (ix2 (0 : Fin 1) k))
          (fun k => v10 (ix2 k (0 : Fin 1))) (v12 (ix2 (0 : Fin 1) (0 : Fin 1))) := by
  unfold k0_pay1 pairScore
  refine (output_apply dot_S2000x32_S32x1_S2000x1_1_0_0_1_n_n ⟨rfl, rfl, rfl, rfl, rfl, rfl⟩ _ _ _ _ p 0).trans ?_
  refine congrArg Ideal.logistic (congrArg₂ (· + ·) (Finset.sum_congr rfl fun k _ => congrArg₂ (· * ·) ?_ ?_) ?_)
  · refine (hidden_apply dot_S2000x64_S64x32_S2000x32_1_0_0_1_n_n ⟨rfl, rfl, rfl, rfl, rfl, rfl⟩ _ _ _ _ _ p k).trans ?_
    refine congrArg (max · 0) (congrArg₂ (· + ·) (Finset.sum_congr rfl fun j _ => congrArg₂ (· * ·) ?_ ?_) ?_)
    · refine (hidden1_apply dot_S2000x128_S128x64_S2000x64_1_0_0_1_n_n ⟨rfl, rfl, rfl, rfl, rfl, rfl⟩ _ _ _ _ _ _ _ p j).trans ?_
      refine congrArg (max · 0) (congrArg₂ (· + ·) (congrArg₂ (· + ·)
        (Finset.sum_congr rfl fun l _ => congrArg₂ (· * ·) ?_ ?_)
        (Finset.sum_congr rfl fun l _ => congrArg₂ (· * ·) ?_ ?_)) ?_)
      · exact congrFun (shapeCast_self v18 _) _
      · exact congrFun (shapeCast_self v0 _) _
      · exact congrFun (shapeCast_self v21 _) _
      · exact congrFun (shapeCast_self v2 _) _
      · exact congrFun (shapeCast_self v4 _) _
    · exact congrFun (shapeCast_self v6 _) _
    · exact congrFun (shapeCast_self v8 _) _
  · exact congrFun (shapeCast_self v10 _) _
  · exact congrFun (shapeCast_self v12 _) _

end Cert.LinkScore

end
-- ==== Proof.Pieces.lean ====
/-
  What the kernel body leaves in its output block.

  The body walks its 8000-row block in four trips of 2000 rows. Trip k stores, at rows off(k) … off(k) + 1999 of the
  output block, the perceptron's scores of the same rows of the two endpoint blocks (the loads and the store of one
  trip share their row offset). Every store therefore writes a restriction of ONE function of the block's row index,
  blockScores, and the four stores tile the block: the block ends holding blockScores.
-/
import proofs.«420939_j89644557402729_3_alg».proof.Proof.Gen.KernelIdeal.Frame
import proofs.«420939_j89644557402729_3_alg».proof.Proof.Payload
import Idealize.ShloMosaic.Lib.Pipeline.Value

set_option maxRecDepth 16384

noncomputable section

open scoped BigOperators

namespace Cert.LinkScore.Kern

open Idealize.ShloMosaic Idealize.ShloMosaic.TcCoe Idealize.ShloMosaic.ValueIdx Idealize.SL.Sem
open Cert.KernelIdeal Cert.KernelIdeal.Gen Cert.LinkScore

theorem hz : (![0, 0] : Fin 2 → Nat) = fun _ => 0 := funext fun a => by fin_cases a <;> rfl

/-- The scores of a block of 8000 edges: row r is the score of row r of the two endpoint blocks x0, x1, under the
    weights x2 … x8 as the body finds them (the two halves of W1, b1 as a row, W2, b2 as a row, W3, b3). -/
def blockScores (x0 x1 : Vec Ideal S8000x128 .bf16) (x2 x3 : Vec Ideal S128x64 .bf16) (x4 : Vec Ideal S1x64 .f32) (x5 : Vec Ideal S64x32 .bf16) (x6 : Vec Ideal S1x32 .f32) (x7 : Vec Ideal S32x1 .bf16) (x8 : Vec Ideal S1x1 .f32) : Vec Ideal S8000x1 .f32 := fun y =>
  pairScore (fun l => x0 (ix2 (y 0) l)) (fun l => x1 (ix2 (y 0) l)) (fun l j => x2 (ix2 l j)) (fun l j => x3 (ix2 l j))
    (fun j => x4 (ix2 (0 : Fin 1) j)) (fun j k => x5 (ix2 j k)) (fun k => x6 (ix2 (0 : Fin 1) k))
    (fun k => x7 (ix2 k (0 : Fin 1))) (x8 (ix2 (0 : Fin 1) (0 : Fin 1)))

/-- ONE TRIP's store: at its rows, the scores of the same rows of the two endpoint blocks. -/
theorem trip_piece (c : Dev nD) (i : grid0.Coords) (arg1 : Memref sig .tc .vmem S8000x128 .bf16) (harg1 : arg1.IsWhole) (arg2 : Memref sig .tc .vmem S8000x128 .bf16) (harg2 : arg2.IsWhole) (arg3 : Memref sig .tc .vmem S128x64 .bf16) (harg3 : arg3.IsWhole) (arg4 : Memref sig .tc .vmem S128x64 .bf16) (harg4 : arg4.IsWhole) (arg5 : Memref sig .tc .vmem S1x64 .f32) (harg5 : arg5.IsWhole) (arg6 : Memref sig .tc .vmem S64x32 .bf16) (harg6 : arg6.IsWhole) (arg7 : Memref sig .tc .vmem S1x32 .f32) (harg7 : arg7.IsWhole) (arg8 : Memref sig .tc .vmem S32x1 .bf16) (harg8 : arg8.IsWhole) (arg9 : Memref sig .tc .vmem S1x1 .f32) (harg9 : arg9.IsWhole) (arg10 : Memref sig .tc .vmem S8000x1 .f32) (harg10 : arg10.IsWhole) (v0 v2 : Vec Ideal S128x64 .bf16) (v4 : Vec Ideal S1x64 .f32) (v6 : Vec Ideal S64x32 .bf16) (v8 : Vec Ideal S1x32 .f32) (v10 : Vec Ideal S32x1 .bf16) (v12 : Vec Ideal S1x1 .f32) (X1 : BufTy.Contents (Elt Ideal) arg1.view.ty) (X2 : BufTy.Contents (Elt Ideal) arg2.view.ty) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 v0 v2 v4 v6 v8 v10 v12 X1 X2 k, ∀ x : p.1.shape.Idx,
      p.2 x = blockScores (arg1.view.read (Elt Ideal) X1) (arg2.view.read (Elt Ideal) X2) v0 v2 v4 v6 v8 v10 v12 (p.1.emb x) := by
  unfold tripL_k0_t1 trip_k0_t1
  dsimp only
  intro p hp x
  obtain rfl := List.mem_singleton.mp hp
  clear hp
  dsimp only at x ⊢
  obtain ⟨r, q, rfl⟩ : ∃ (r : Fin 2000) (q : Fin 1), x = ix2 r q := ⟨x 0, x 1, eq_ix2 x⟩
  obtain rfl : q = 0 := Subsingleton.elim _ _
  refine (payload_apply v0 v2 v4 v6 v8 v10 v12 _ _ r).trans ?_
  unfold blockScores
  have e1 : (fun l : Fin 128 => View.readAt (Elt Ideal) arg1.view (Rect.unit (s := S8000x128) (k0_off1 k) S2000x128.size (k0_off1_inb k)).toLoadRect X1 (ix2 r l))
      = fun l : Fin 128 => arg1.view.read (Elt Ideal) X1 (ix2 ((Rect.unit (s := S8000x1) (k0_off2 k) S2000x1.size (k0_off2_inb k)).emb (ix2 r (0 : Fin 1)) 0) l) := by
    funext l
    rw [View.readAt_apply]
    refine congrArg (arg1.view.read (Elt Ideal) X1) ?_
    funext a
    refine Fin.ext ?_
    match a with
    | ⟨0, _⟩ => rfl
    | ⟨1, _⟩ => show 0 + 1 * l.val = l.val; omega
  have e2 : (fun l : Fin 128 => View.readAt (Elt Ideal) arg2.view (Rect.unit (s := S8000x128) (k0_off1 k) S2000x128.size (k0_off1_inb k)).toLoadRect X2 (ix2 r l))
      = fun l : Fin 128 => arg2.view.read (Elt Ideal) X2 (ix2 ((Rect.unit (s := S8000x1) (k0_off2 k) S2000x1.size (k0_off2_inb k)).emb (ix2 r (0 : Fin 1)) 0) l) := by
    funext l
    rw [View.readAt_apply]
    refine congrArg (arg2.view.read (Elt Ideal) X2) ?_
    funext a
    refine Fin.ext ?_
    match a with
    | ⟨0, _⟩ => rfl
    | ⟨1, _⟩ => show 0 + 1 * l.val = l.val; omega
  exact congrArg₂ (fun a b => pairScore a b _ _ _ _ _ _ _) e1 e2

/-- Every store of the first n trips agrees with blockScores: by induction on the trips. -/
theorem pieces_agree (c : Dev nD) (i : grid0.Coords) (arg1 : Memref sig .tc .vmem S8000x128 .bf16) (harg1 : arg1.IsWhole) (arg2 : Memref sig .tc .vmem S8000x128 .bf16) (harg2 : arg2.IsWhole) (arg3 : Memref sig .tc .vmem S128x64 .bf16) (harg3 : arg3.IsWhole) (arg4 : Memref sig .tc .vmem S128x64 .bf16) (harg4 : arg4.IsWhole) (arg5 : Memref sig .tc .vmem S1x64 .f32) (harg5 : arg5.IsWhole) (arg6 : Memref sig .tc .vmem S64x32 .bf16) (harg6 : arg6.IsWhole) (arg7 : Memref sig .tc .vmem S1x32 .f32) (harg7 : arg7.IsWhole) (arg8 : Memref sig .tc .vmem S32x1 .bf16) (harg8 : arg8.IsWhole) (arg9 : Memref sig .tc .vmem S1x1 .f32) (harg9 : arg9.IsWhole) (arg10 : Memref sig .tc .vmem S8000x1 .f32) (harg10 : arg10.IsWhole) (v0 v2 : Vec Ideal S128x64 .bf16) (v4 : Vec Ideal S1x64 .f32) (v6 : Vec Ideal S64x32 .bf16) (v8 : Vec Ideal S1x32 .f32) (v10 : Vec Ideal S32x1 .bf16) (v12 : Vec Ideal S1x1 .f32) (X1 : BufTy.Contents (Elt Ideal) arg1.view.ty) (X2 : BufTy.Contents (Elt Ideal) arg2.view.ty) :
    ∀ (n : ℕ), ∀ p ∈ pb_k0_t1 (F := Ideal) Variants.none c none i arg1 harg1 arg2 harg2 arg3 harg3 arg4 harg4 arg5 harg5 arg6 harg6 arg7 harg7 arg8 harg8 arg9 harg9 arg10 harg10 v0 v2 v4 v6 v8 v10 v12 X1 X2 n, ∀ x : p.1.shape.Idx,
      p.2 x = blockScores (arg1.view.read (Elt Ideal) X1) (arg2.view.read (Elt Ideal) X2) v0 v2 v4 v6 v8 v10 v12 (p.1.emb x) := by
  intro n
  induction n with
  | zero =>
    intro p hp
    rw [pb_k0_t1.eq_1] at hp
    exact absurd hp List.not_mem_nil
  | succ n ih =>
    intro p hp
    rw [pb_k0_t1.eq_2] at hp
    unfold pb_k0_t1Step at hp
    split at hp
    · rcases List.mem_append.mp hp with h | h
      · exact trip_piece c i arg1 harg1 arg2 harg2 arg3 harg3 arg4 harg4 arg5 harg5 arg6 harg6 arg7 harg7 arg8 harg8 arg9 harg9 arg10 harg10 v0 v2 v4 v6 v8 v10 v12 X1 X2 _ p h
      · exact ih p h
    · exact ih p hp

/-- THE BLOCK: after the body, the output block holds the scores of the two endpoint blocks, row by row. -/
theorem out_eq (c : Dev nD) (i : grid0.Coords) (arg1 : Memref sig .tc .vmem S8000x128 .bf16) (harg1 : arg1.IsWhole) (arg2 : Memref sig .tc .vmem S8000x128 .bf16) (harg2 : arg2.IsWhole) (arg3 : Memref sig .tc .vmem S128x64 .bf16) (harg3 : arg3.IsWhole) (arg4 : Memref sig .tc .vmem S128x64 .bf16) (harg4 : arg4.IsWhole) (arg5 : Memref sig .tc .vmem S1x64 .f32) (harg5 : arg5.IsWhole) (arg6 : Memref sig .tc .vmem S64x32 .bf16) (harg6 : arg6.IsWhole) (arg7 : Memref sig .tc .vmem S1x32 .f32) (harg7 : arg7.IsWhole) (arg8 : Memref sig .tc .vmem S32x1 .bf16) (harg8 : arg8.IsWhole) (arg9 : Memref sig .tc .vmem S1x1 .f32) (harg9 : arg9.IsWhole) (arg10 : Memref sig .tc .vmem S8000x1 .f32) (harg10 : arg10.IsWhole) (x0 x1 : Vec Ideal S8000x128 .bf16) (x2 x3 : Vec Ideal S128x64 .bf16) (x4 : Vec Ideal S1x64 .f32) (x5 : Vec Ideal S64x32 .bf16) (x6 : Vec Ideal S1x32 .f32) (x7 : Vec Ideal S32x1 .bf16) (x8 : Vec Ideal S1x1 .f32) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 = blockScores x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  funext y
  refine View.canon_apply_of_pieces (blockScores x0 x1 x2 x3 x4 x5 x6 x7 x8) _ ?_ y (cover0_A_9 c i arg1 harg1 arg2 harg2 arg3 harg3 arg4 harg4 arg5 harg5 arg6 harg6 arg7 harg7 arg8 harg8 arg9 harg9 arg10 harg10 x0 x1 x2 x3 x4 x5 x6 x7 x8 y)
  unfold kernelRun0_A
  dsimp only
  intro p hp x
  have h := pieces_agree c i arg1 harg1 arg2 harg2 arg3 harg3 arg4 harg4 arg5 harg5 arg6 harg6 arg7 harg7 arg8 harg8 arg9 harg9 arg10 harg10 _ _ _ _ _ _ _ _ _ _ p hp x
  have e0 : arg1.view.read (Elt Ideal) (harg1.unread x0) = x0 := harg1.read_unread x0
  have e1 : arg2.view.read (Elt Ideal) (harg2.unread x1) = x1 := harg2.read_unread x1
  have e2 : View.readAt (Elt Ideal) arg3.view (Rect.unit (s := S128x64) ![0, 0] S128x64.size inb_S128x64_S128x64_0_0).toLoadRect (harg3.unread x2) = x2 := by
    rw [View.readAt_eq_ld, harg3.read_unread]; exact View.ld_unit_zero (S := S128x64) hz _ x2
  have e3 : View.readAt (Elt Ideal) arg4.view (Rect.unit (s := S128x64) ![0, 0] S128x64.size inb_S128x64_S128x64_0_0).toLoadRect (harg4.unread x3) = x3 := by
    rw [View.readAt_eq_ld, harg4.read_unread]; exact View.ld_unit_zero (S := S128x64) hz _ x3
  have e4 : View.readAt (Elt Ideal) arg5.view (Rect.unit (s := S1x64) ![0, 0] S1x64.size inb_S1x64_S1x64_0_0).toLoadRect (harg5.unread x4) = x4 := by
    rw [View.readAt_eq_ld, harg5.read_unread]; exact View.ld_unit_zero (S := S1x64) hz _ x4
  have e5 : View.readAt (Elt Ideal) arg6.view (Rect.unit (s := S64x32) ![0, 0] S64x32.size inb_S64x32_S64x32_0_0).toLoadRect (harg6.unread x5) = x5 := by
    rw [View.readAt_eq_ld, harg6.read_unread]; exact View.ld_unit_zero (S := S64x32) hz _ x5
  have e6 : View.readAt (Elt Ideal) arg7.view (Rect.unit (s := S1x32) ![0, 0] S1x32.size inb_S1x32_S1x32_0_0).toLoadRect (harg7.unread x6) = x6 := by
    rw [View.readAt_eq_ld, harg7.read_unread]; exact View.ld_unit_zero (S := S1x32) hz _ x6
  have e7 : View.readAt (Elt Ideal) arg8.view (Rect.unit (s := S32x1) ![0, 0] S32x1.size inb_S32x1_S32x1_0_0).toLoadRect (harg8.unread x7) = x7 := by
    rw [View.readAt_eq_ld, harg8.read_unread]; exact View.ld_unit_zero (S := S32x1) hz _ x7
  have e8 : View.readAt (Elt Ideal) arg9.view (Rect.unit (s := S1x1) ![0, 0] S1x1.size inb_S1x1_S1x1_0_0).toLoadRect (harg9.unread x8) = x8 := by
    rw [View.readAt_eq_ld, harg9.read_unread]; exact View.ld_unit_zero (S := S1x1) hz _ x8
  rw [e0, e1, e2, e3, e4, e5, e6, e7, e8] at h
  exact h

end Cert.LinkScore.Kern

end
-- ==== Proof.KernelScores.lean ====
/-
  The scores array the region leaves.

  The grid has 125 points; point t takes rows 8000·t … 8000·t + 7999 of the two gathered endpoint arrays and the whole
  of each weight array, and writes back rows 8000·t … 8000·t + 7999 of the [1000000, 1] result. What it writes back is
  the block of ONE function of the arrays the region finds, colScores: row e of the result is the perceptron's score of
  row e of the two endpoint arrays. The 125 blocks tile the result, so the result ends holding colScores.
-/
import proofs.«420939_j89644557402729_3_alg».proof.Proof.Pieces
import Idealize.ShloMosaic.Lib.StableHlo.Run
import Idealize.ShloMosaic.Lib.Tactic

set_option maxRecDepth 16384

noncomputable section

open scoped BigOperators

namespace Cert.LinkScore.Kern

open Idealize.ShloMosaic Idealize.ShloMosaic.TcCoe Idealize.ShloMosaic.ValueIdx Idealize.SL.Sem
open Idealize.ShloMosaic.Pipeline (Dat)
open Cert.KernelIdeal Cert.KernelIdeal.Gen Cert.LinkScore

variable (m : (ℓ : Loc nD τ sig) → Buf (Elt Ideal) ℓ) (ρ : Dev nD → PrngReg)

/-- The scores as a column over the arrays the region finds: row e is the score of row e of the two endpoint arrays. -/
def colScores (A0 A1 : Vec Ideal S1000000x128 .bf16) (A2 A3 : Vec Ideal S128x64 .bf16) (A4 : Vec Ideal S1x64 .f32) (A5 : Vec Ideal S64x32 .bf16) (A6 : Vec Ideal S1x32 .f32) (A7 : Vec Ideal S32x1 .bf16) (A8 : Vec Ideal S1x1 .f32) : Vec Ideal S1000000x1 .f32 := fun y =>
  pairScore (fun l => A0 (ix2 (y 0) l)) (fun l => A1 (ix2 (y 0) l)) (fun l j => A2 (ix2 l j)) (fun l j => A3 (ix2 l j))
    (fun j => A4 (ix2 (0 : Fin 1) j)) (fun j k => A5 (ix2 j k)) (fun k => A6 (ix2 (0 : Fin 1) k))
    (fun k => A7 (ix2 k (0 : Fin 1))) (A8 (ix2 (0 : Fin 1) (0 : Fin 1)))

/-- Equal rows, weights and biases give equal scores. -/
theorem pairScore_congr {a a' b b' : Fin 128 → EReal} {w1a w1a' w1b w1b' : Fin 128 → Fin 64 → EReal} {c1 c1' : Fin 64 → EReal}
    {w2 w2' : Fin 64 → Fin 32 → EReal} {c2 c2' : Fin 32 → EReal} {w3 w3' : Fin 32 → EReal} {c3 c3' : EReal}
    (h0 : a = a') (h1 : b = b') (h2 : w1a = w1a') (h3 : w1b = w1b') (h4 : c1 = c1') (h5 : w2 = w2') (h6 : c2 = c2')
    (h7 : w3 = w3') (h8 : c3 = c3') :
    pairScore a b w1a w1b c1 w2 c2 w3 c3 = pairScore a' b' w1a' w1b' c1' w2' c2' w3' c3' := by
  subst h0 h1 h2 h3 h4 h5 h6 h7 h8; rfl

/-- The index maps, decided over the grid: the two endpoint windows move with the result window along the rows and
    stay at column block 0; every weight window stays at block (0, 0); the result window is at row block t. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- WHAT POINT t WRITES BACK is block t of colScores of the arrays the region finds. -/
theorem flushed_eq (c : Dev nD) (t : Fin cfg0.N) :
    (dats m 0 c).flushed 9 t = ((cfg0.win 9).blk t).view.read (Elt Ideal) (colScores (V m c main_v5) (V m c main_v6) (V m c main_v8) (V m c main_v10) (V m c main_v13) (V m c main_v11) (V m c main_v14) (V m c main_v12) (V m c main_v15)) := by
  show (cfg0.win 9).cut (grid0.coords t) ((dats m 0 c).after 9 t) = _
  rw [after0_9]
  unfold outsAt0
  rw [out_eq]
  obtain ⟨e00, e01, e10, e11, e20, e21, e30, e31, e40, e41, e50, e51, e60, e61, e70, e71, e80, e81, e90, e91⟩ := idx_facts t
  funext y
  show blockScores (iblk m c 0 t) (iblk m c 1 t) (iblk m c 2 t) (iblk m c 3 t) (iblk m c 4 t) (iblk m c 5 t) (iblk m c 6 t) (iblk m c 7 t) (iblk m c 8 t) y
    = colScores (V m c main_v5) (V m c main_v6) (V m c main_v8) (V m c main_v10) (V m c main_v13) (V m c main_v11) (V m c main_v14) (V m c main_v12) (V m c main_v15) (((cfg0.win 9).blk t).view.emb y)
  have r0 : (fun l : Fin 128 => iblk m c 0 t (ix2 (y 0) l)) = fun l : Fin 128 => V m c main_v5 (ix2 ((((cfg0.win 9).blk t).view.emb y) 0) l) := by
    funext l
    show V m c main_v5 (((cfg0.win 0).blk t).view.emb (ix2 (y 0) l)) = _
    refine congrArg (V m c main_v5) ?_
    funext a
    refine Fin.ext ?_
    match a with
    | ⟨0, _⟩ => show win0_0.index t (0 : Fin 2) * 8000 + 1 * (y 0).val = win0_9.index t (0 : Fin 2) * 8000 + 1 * (y 0).val; rw [e00]
    | ⟨1, _⟩ => show win0_0.index t (1 : Fin 2) * 128 + 1 * l.val = l.val; rw [e01]; omega
  have r1 : (fun l : Fin 128 => iblk m c 1 t (ix2 (y 0) l)) = fun l : Fin 128 => V m c main_v6 (ix2 ((((cfg0.win 9).blk t).view.emb y) 0) l) := by
    funext l
    show V m c main_v6 (((cfg0.win 1).blk t).view.emb (ix2 (y 0) l)) = _
    refine congrArg (V m c main_v6) ?_
    funext a
    refine Fin.ext ?_
    match a with
    | ⟨0, _⟩ => show win0_1.index t (0 : Fin 2) * 8000 + 1 * (y 0).val = win0_9.index t (0 : Fin 2) * 8000 + 1 * (y 0).val; rw [e10]
    | ⟨1, _⟩ => show win0_1.index t (1 : Fin 2) * 128 + 1 * l.val = l.val; rw [e11]; omega
  have r2 : (fun (l : Fin 128) (j : Fin 64) => iblk m c 2 t (ix2 l j)) = fun (l : Fin 128) (j : Fin 64) => V m c main_v8 (ix2 l j) := by
    funext l j
    show V m c main_v8 (((cfg0.win 2).blk t).view.emb (ix2 l j)) = _
    refine congrArg (V m c main_v8) ?_
    funext a
    refine Fin.ext ?_
    match a with
    | ⟨0, _⟩ => show win0_2.index t (0 : Fin 2) * 128 + 1 * l.val = l.val; rw [e20]; omega
    | ⟨1, _⟩ => show win0_2.index t (1 : Fin 2) * 64 + 1 * j.val = j.val; rw [e21]; omega
  have r3 : (fun (l : Fin 128) (j : Fin 64) => iblk m c 3 t (ix2 l j)) = fun (l : Fin 128) (j : Fin 64) => V m c main_v10 (ix2 l j) := by
    funext l j
    show V m c main_v10 (((cfg0.win 3).blk t).view.emb (ix2 l j)) = _
    refine congrArg (V m c main_v10) ?_
    funext a
    refine Fin.ext ?_
    match a with
    | ⟨0, _⟩ => show win0_3.index t (0 : Fin 2) * 128 + 1 * l.val = l.val; rw [e30]; omega
    | ⟨1, _⟩ => show win0_3.index t (1 : Fin 2) * 64 + 1 * j.val = j.val; rw [e31]; omega
  have r4 : (fun (j : Fin 64) => iblk m c 4 t (ix2 (0 : Fin 1) j)) = fun (j : Fin 64) => V m c main_v13 (ix2 (0 : Fin 1) j) := by
    funext j
    show V m c main_v13 (((cfg0.win 4).blk t).view.emb (ix2 (0 : Fin 1) j)) = _
    refine congrArg (V m c main_v13) ?_
    funext a
    refine Fin.ext ?_
    match a with
    | ⟨0, _⟩ => show win0_4.index t (0 : Fin 2) * 1 + 1 * 0 = 0; rw [e40]
    | ⟨1, _⟩ => show win0_4.index t (1 : Fin 2) * 64 + 1 * j.val = j.val; rw [e41]; omega
  have r5 : (fun (l : Fin 64) (j : Fin 32) => iblk m c 5 t (ix2 l j)) = fun (l : Fin 64) (j : Fin 32) => V m c main_v11 (ix2 l j) := by
    funext l j
    show V m c main_v11 (((cfg0.win 5).blk t).view.emb (ix2 l j)) = _
    refine congrArg (V m c main_v11) ?_
    funext a
    refine Fin.ext ?_
    match a with
    | ⟨0, _⟩ => show win0_5.index t (0 : Fin 2) * 64 + 1 * l.val = l.val; rw [e50]; omega
    | ⟨1, _⟩ => show win0_5.index t (1 : Fin 2) * 32 + 1 * j.val = j.val; rw [e51]; omega
  have r6 : (fun (j : Fin 32) => iblk m c 6 t (ix2 (0 : Fin 1) j)) = fun (j : Fin 32) => V m c main_v14 (ix2 (0 : Fin 1) j) := by
    funext j
    show V m c main_v14 (((cfg0.win 6).blk t).view.emb (ix2 (0 : Fin 1) j)) = _
    refine congrArg (V m c main_v14) ?_
    funext a
    refine Fin.ext ?_
    match a with
    | ⟨0, _⟩ => show win0_6.index t (0 : Fin 2) * 1 + 1 * 0 = 0; rw [e60]
    | ⟨1, _⟩ => show win0_6.index t (1 : Fin 2) * 32 + 1 * j.val = j.val; rw [e61]; omega
  have r7 : (fun (k : Fin 32) => iblk m c 7 t (ix2 k (0 : Fin 1))) = fun (k : Fin 32) => V m c main_v12 (ix2 k (0 : Fin 1)) := by
    funext k
    show V m c main_v12 (((cfg0.win 7).blk t).view.emb (ix2 k (0 : Fin 1))) = _
    refine congrArg (V m c main_v12) ?_
    funext a
    refine Fin.ext ?_
    match a with
    | ⟨0, _⟩ => show win0_7.index t (0 : Fin 2) * 32 + 1 * k.val = k.val; rw [e70]; omega
    | ⟨1, _⟩ => show win0_7.index t (1 : Fin 2) * 1 + 1 * 0 = 0; rw [e71]
  have r8 : iblk m c 8 t (ix2 (0 : Fin 1) (0 : Fin 1)) = V m c main_v15 (ix2 (0 : Fin 1) (0 : Fin 1)) := by
    show V m c main_v15 (((cfg0.win 8).blk t).view.emb (ix2 (0 : Fin 1) (0 : Fin 1))) = _
    refine congrArg (V m c main_v15) ?_
    funext a
    refine Fin.ext ?_
    match a with
    | ⟨0, _⟩ => show win0_8.index t (0 : Fin 2) * 1 + 1 * 0 = 0; rw [e80]
    | ⟨1, _⟩ => show win0_8.index t (1 : Fin 2) * 1 + 1 * 0 = 0; rw [e81]
  exact pairScore_congr r0 r1 r2 r3 r4 r5 r6 r7 r8

/-- An index of the result is in point t's block iff its row is one of the block's 8000 rows. -/
theorem mem_blk (t : Fin cfg0.N) (i : S1000000x1.Idx) :
    i ∈ ((cfg0.win 9).blk t).view.set ↔ ∀ a : Fin 2, win0_9.index t a * S8000x1.size a ≤ (i a).val ∧ (i a).val < win0_9.index t a * S8000x1.size a + S8000x1.size a := by
  show i ∈ ((View.whole main_v16).slice (win0_9.rect t)).set ↔ _
  rw [View.set_slice_whole, Rect.mem_set_unit]
  exact Iff.rfl

/-- The 125 blocks tile the result: row r is in the block of point r / 8000. -/
theorem cover (i : S1000000x1.Idx) : ∃ t : Fin cfg0.N, (cfg0.win 9).flush t = true ∧ i ∈ ((cfg0.win 9).blk t).view.set := by
  have hN : cfg0.N = 125 := N_0
  have hi0 : (i 0).val < 1000000 := (i 0).isLt
  have hi1 : (i 1).val < 1 := (i 1).isLt
  refine ⟨⟨(i 0).val / 8000, by rw [hN]; omega⟩, flush0_9 _, ?_⟩
  rw [mem_blk]
  obtain ⟨-, -, -, -, -, -, -, -, -, -, -, -, -, -, -, -, -, -, e90, e91⟩ := idx_facts ⟨(i 0).val / 8000, by rw [hN]; omega⟩
  intro a
  match a with
  | ⟨0, _⟩ =>
    show win0_9.index _ (0 : Fin 2) * 8000 ≤ (i 0).val ∧ (i 0).val < win0_9.index _ (0 : Fin 2) * 8000 + 8000
    rw [e90]; dsimp only; omega
  | ⟨1, _⟩ =>
    show win0_9.index _ (1 : Fin 2) * 1 ≤ (i 1).val ∧ (i 1).val < win0_9.index _ (1 : Fin 2) * 1 + 1
    rw [e91]; omega

/-- THE RESULT ARRAY of the region: colScores of the arrays the region finds. -/
theorem final (c : Dev nD) :
    (dats m 0 c).arrAt 9 cfg0.N = colScores (V m c main_v5) (V m c main_v6) (V m c main_v8) (V m c main_v10) (V m c main_v13) (V m c main_v11) (V m c main_v14) (V m c main_v12) (V m c main_v15) :=
  (dats m 0 c).arrAt_eq_of_cover 9 _ (fun t _ => flushed_eq m c t) cover

/-- After the region the result is flattened to a vector of 1000000 scores: entry e is row e of the column. -/
theorem tail_eq (c : Dev nD) :
    Pipeline.afterTail₀ cfgs (dats m) 0 (V0 m) [hostOps1] c main_v17
      = fun i => colScores (V m c main_v5) (V m c main_v6) (V m c main_v8) (V m c main_v10) (V m c main_v13) (V m c main_v11) (V m c main_v14) (V m c main_v12) (V m c main_v15) (ix2 (i 0) (0 : Fin 1)) := by
  unfold Pipeline.afterTail₀
  show StableHlo.after hostOps1 _ (Proc.devRef .tc main_v17) = _
  after_results
  funext i
  show shapeCast S1000000 (Pipeline.withArrays (cfgs 0).spec c (V0 m c) (fun w => (dats m 0 c).arrAt w (cfgs 0).N) (Proc.tc.devRef main_v16)) shapeCasts_S1000000x1_S1000000 i = _
  have hw : Pipeline.withArrays (cfgs 0).spec c (V0 m c) (fun w => (dats m 0 c).arrAt w (cfgs 0).N) (Proc.tc.devRef main_v16)
      = colScores (V m c main_v5) (V m c main_v6) (V m c main_v8) (V m c main_v10) (V m c main_v13) (V m c main_v11) (V m c main_v14) (V m c main_v12) (V m c main_v15) :=
    (Pipeline.withArrays_arr spec0 launch0.win.arr_inj c _ _ 9).trans (final m c)
  rw [hw]
  exact shapeCast_apply _ shapeCasts_S1000000x1_S1000000 i (ix2 (i 0) (0 : Fin 1))
    (by rewrite [Shape.rowMajor_val_two, Shape.rowMajor_val_one]; have h0 : (i 0).val < 1000000 := (i 0).isLt; show ((i 0).val) * 1 + 0 = (i 0).val; omega)

end Cert.LinkScore.Kern

end
-- ==== Proof.LibRowGather.lean ====
/-
  A row gather read at an element.

  A gather of whole rows of an [R, C] operand at N start indices (result axis 1 the one offset axis,
  operand axis 0 collapsed and named by the start index map, index vectors along axis 1 of an [N, 1]
  array) reads, at (n, k), the operand at column k of the row idx[n, 0] read signed and clamped into
  [0, R − 1]: a negative word reads row 0, a word beyond the last row reads row R − 1.
-/
import Idealize.ShloMosaic.PureOps.ShapeOps
import Idealize.ShloMosaic.PureOps.Dims
import Idealize.ShloMosaic.Lib.ValueIdx
import Idealize.ShloMosaic.Lib.Pipeline.Value

namespace Cert.Lib.RowGather

open Idealize.ShloMosaic
open Idealize.ShloMosaic.ValueIdx

/-! ## The pieces of the operand index, for the [N, C] result layout

The result's axis 1 is its one offset axis, so its axis 0 is its one batch axis; the start indices are an [N, 1]
array whose axis 1 is the index vector, so a start index has one component and result row n reads it at (n, 0). -/

section Pieces
variable {R C N : ℕ} (d : GatherDims ⟨2, ![R, C]⟩ ⟨2, ![N, 1]⟩ ⟨2, ![N, C]⟩)

/-- A list that is a one-element list has that element at every position. -/
theorem getElem_eq_of_singleton {β : Type} {l : List β} {v : β} (e : l = [v]) (i : ℕ) (hi : i < l.length) :
    l[i] = v :=
  List.mem_singleton.mp (e ▸ List.getElem_mem hi)

/-- The position of the start indices read for result index j: row j 0, and 0 along the index vector (an axis of
    extent 1 has no other position). -/
theorem siIdx_row (h1 : d.offsetDims = [1]) (h6 : d.indexVectorDim = 1) (j : (⟨2, ![N, C]⟩ : Shape).Idx)
    (c : Fin d.startIndexMap.length) : d.siIdx j c = ix2 (n0 := N) (n1 := 1) (j 0) ⟨0, Nat.one_pos⟩ := by
  funext b
  refine Fin.ext ?_
  match b with
  | ⟨0, _⟩ =>
    unfold GatherDims.siIdx
    rw [dif_neg (by rw [h6]; exact Nat.zero_ne_one)]
    unfold GatherDims.siCoord
    have hbd : d.batchDims = [0] := by
      show Shape.kept _ d.offsetDims = _
      rw [h1]; rfl
    exact congrArg (fun a => (j a).val) (getElem_eq_of_singleton hbd _ _)
  | ⟨1, _⟩ =>
    show (d.siIdx j c ⟨1, _⟩).val = 0
    exact Nat.lt_one_iff.mp (d.siIdx j c ⟨1, _⟩).isLt

/-- The row axis of the operand is collapsed and is the one axis the start index map names: the slice starts at the
    start index read signed and clamped into [0, R − 1], and there is no offset on it. -/
theorem row_coord (h1 : d.offsetDims = [1]) (h2 : d.collapsedSliceDims = [0]) (h5 : d.startIndexMap = [0])
    (h6 : d.indexVectorDim = 1) (j : (⟨2, ![N, C]⟩ : Shape).Idx) (idx : IVec ⟨2, ![N, 1]⟩ 32) :
    d.start j idx 0 + d.offCoord j 0
      = min (idx (ix2 (n0 := N) (n1 := 1) (j 0) ⟨0, Nat.one_pos⟩)).toInt.toNat (R - 1) := by
  have hc : (0 : Fin 2) ∈ d.collapsedSliceDims := by rw [h2]; exact List.mem_singleton_self _
  have hm : (0 : Fin 2) ∈ d.startIndexMap := by rw [h5]; exact List.mem_singleton_self _
  rw [d.offCoord_eq_zero j 0 (fun hk => ((d.mem_sKept _).1 hk).1 hc), Nat.add_zero]
  unfold GatherDims.start
  rw [dif_pos hm, siIdx_row d h1 h6, d.slice_collapsed 0 hc]
  rfl

/-- The column axis of the operand is kept whole and the start index map does not name it: the slice starts at 0
    and the offset is the result's column. -/
theorem col_coord (h1 : d.offsetDims = [1]) (h2 : d.collapsedSliceDims = [0]) (h3 : d.operandBatchingDims = [])
    (h5 : d.startIndexMap = [0]) (j : (⟨2, ![N, C]⟩ : Shape).Idx) (idx : IVec ⟨2, ![N, 1]⟩ 32) :
    d.start j idx 1 + d.offCoord j 1 = (j 1).val := by
  have hne : ∀ {l : List (Fin 2)}, l = [0] → (1 : Fin 2) ∉ l := fun e h =>
    Nat.one_ne_zero (congrArg Fin.val (List.mem_singleton.mp (e ▸ h)))
  have hnm : (1 : Fin 2) ∉ d.startIndexMap := hne h5
  have hnc : (1 : Fin 2) ∉ d.collapsedSliceDims := hne h2
  have hnb : (1 : Fin 2) ∉ d.operandBatchingDims := by rw [h3]; exact List.not_mem_nil
  unfold GatherDims.start GatherDims.offCoord
  rw [dif_neg hnm, dif_pos ((d.mem_sKept 1).2 ⟨hnc, hnb⟩), Nat.zero_add]
  exact congrArg (fun a => (j a).val) (getElem_eq_of_singleton h1 _ _)

end Pieces

/-- THE ROW GATHER: result element (n, k) is the operand at row idx[n, 0] (signed, clamped) and column k. -/
theorem rowGather_apply {α : Type} {R C N : ℕ} (d : GatherDims ⟨2, ![R, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![N, 1]⟩ 32) (n : Fin N) (k : Fin C) (hR : 0 < R) :
    Host.gather d x idx (ix2 n k)
      = x (ix2 (n0 := R) (n1 := C) ⟨min (idx (ix2 (n0 := N) (n1 := 1) n ⟨0, Nat.one_pos⟩)).toInt.toNat (R - 1), by omega⟩ k) := by
  unfold Host.gather
  congr 1
  funext a
  refine Fin.ext ?_
  show d.start (ix2 n k) idx a + d.batchCoord (ix2 n k) a + d.offCoord (ix2 n k) a = _
  rw [d.batchCoord_eq_zero _ a (by rw [h3]; exact List.not_mem_nil), Nat.add_zero]
  match a with
  | ⟨0, _⟩ => exact row_coord d h1 h2 h5 h6 (ix2 n k) idx
  | ⟨1, _⟩ => exact col_coord d h1 h2 h3 h5 (ix2 n k) idx

end Cert.Lib.RowGather
-- ==== Proof.HostBefore.lean ====
/-
  The arrays the region finds.

  Before the region the program slices the two rows of node ids out of edge_index, gathers the two endpoint arrays out
  of the feature table (a change of float format is the identity on the extended reals; the gather reads a node id
  signed and clamped into the table), cuts W1 into its two halves and views the three bias vectors as rows.
-/
import proofs.«420939_j89644557402729_3_alg».proof.Proof.Gen.KernelIdeal.Frame
import proofs.«420939_j89644557402729_3_alg».proof.Proof.Spec
import proofs.«420939_j89644557402729_3_alg».proof.Proof.LibRowGather
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.LinkScore.Kern

open Idealize.ShloMosaic Idealize.ShloMosaic.TcCoe Idealize.ShloMosaic.ValueIdx Idealize.SL.Sem
open Cert.KernelIdeal Cert.KernelIdeal.Gen Cert.LinkScore

variable (m : (ℓ : Loc nD τ sig) → Buf (Elt Ideal) ℓ)

/-! ## Each array as the host operations' term of the arguments -/

theorem V5_term (c : Dev nD) : @Eq (FVec Ideal S1000000x128 .bf16) (V m c main_v5) (Host.gather gather_S100000x128_S1000000x1_S1000000x128_1_0_n_n_0_1_1128 (truncf (F := Ideal) .bf16 (m ((c : Thread nD τ).loc main_arg0) : FVec Ideal S100000x128 .f32) bitsLt_bf16_f32)
      (broadcastInDim S1000000x1 ![0] bcast_S1000000_S1000000x1_0 (shapeCast S1000000 (extractStridedSlice S1x1000000 ![0, 0] (m ((c : Thread nD τ).loc main_arg1) : IVec S2x1000000 32) slices_S2x1000000_S1x1000000_0_0) shapeCasts_S1x1000000_S1000000))) := by
  dsimp only [Gen.V, Gen.V0]
  simp only [Gen.hostOps0, Gen.hostOps0_1, Gen.hostOps0_2, Gen.hostOps0_3, List.flatten_cons, List.flatten_nil, List.append_nil, List.cons_append, List.nil_append]
  after_results
  all_goals rfl

theorem V6_term (c : Dev nD) : @Eq (FVec Ideal S1000000x128 .bf16) (V m c main_v6) (Host.gather gather_S100000x128_S1000000x1_S1000000x128_1_0_n_n_0_1_1128 (truncf (F := Ideal) .bf16 (m ((c : Thread nD τ).loc main_arg0) : FVec Ideal S100000x128 .f32) bitsLt_bf16_f32)
      (broadcastInDim S1000000x1 ![0] bcast_S1000000_S1000000x1_0 (shapeCast S1000000 (extractStridedSlice S1x1000000 ![1, 0] (m ((c : Thread nD τ).loc main_arg1) : IVec S2x1000000 32) slices_S2x1000000_S1x1000000_1_0) shapeCasts_S1x1000000_S1000000))) := by
  dsimp only [Gen.V, Gen.V0]
  simp only [Gen.hostOps0, Gen.hostOps0_1, Gen.hostOps0_2, Gen.hostOps0_3, List.flatten_cons, List.flatten_nil, List.append_nil, List.cons_append, List.nil_append]
  after_results
  all_goals rfl

theorem V8_term (c : Dev nD) : @Eq (FVec Ideal S128x64 .bf16) (V m c main_v8) (truncf (F := Ideal) .bf16 (extractStridedSlice S128x64 ![0, 0] (m ((c : Thread nD τ).loc main_arg2) : FVec Ideal S256x64 .f32) slices_S256x64_S128x64_0_0) bitsLt_bf16_f32) := by
  dsimp only [Gen.V, Gen.V0]
  simp only [Gen.hostOps0, Gen.hostOps0_1, Gen.hostOps0_2, Gen.hostOps0_3, List.flatten_cons, List.flatten_nil, List.append_nil, List.cons_append, List.nil_append]
  after_results
  all_goals rfl

theorem V10_term (c : Dev nD) : @Eq (FVec Ideal S128x64 .bf16) (V m c main_v10) (truncf (F := Ideal) .bf16 (extractStridedSlice S128x64 ![128, 0] (m ((c : Thread nD τ).loc main_arg2) : FVec Ideal S256x64 .f32) slices_S256x64_S128x64_128_0) bitsLt_bf16_f32) := by
  dsimp only [Gen.V, Gen.V0]
  simp only [Gen.hostOps0, Gen.hostOps0_1, Gen.hostOps0_2, Gen.hostOps0_3, List.flatten_cons, List.flatten_nil, List.append_nil, List.cons_append, List.nil_append]
  after_results
  all_goals rfl

theorem V13_term (c : Dev nD) : @Eq (FVec Ideal S1x64 .f32) (V m c main_v13) (shapeCast S1x64 (m ((c : Thread nD τ).loc main_arg3) : FVec Ideal S64 .f32) shapeCasts_S64_S1x64) := by
  dsimp only [Gen.V, Gen.V0]
  simp only [Gen.hostOps0, Gen.hostOps0_1, Gen.hostOps0_2, Gen.hostOps0_3, List.flatten_cons, List.flatten_nil, List.append_nil, List.cons_append, List.nil_append]
  after_results
  all_goals rfl

theorem V11_term (c : Dev nD) : @Eq (FVec Ideal S64x32 .bf16) (V m c main_v11) (truncf (F := Ideal) .bf16 (m ((c : Thread nD τ).loc main_arg4) : FVec Ideal S64x32 .f32) bitsLt_bf16_f32) := by
  dsimp only [Gen.V, Gen.V0]
  simp only [Gen.hostOps0, Gen.hostOps0_1, Gen.hostOps0_2, Gen.hostOps0_3, List.flatten_cons, List.flatten_nil, List.append_nil, List.cons_append, List.nil_append]
  after_results
  all_goals rfl

theorem V14_term (c : Dev nD) : @Eq (FVec Ideal S1x32 .f32) (V m c main_v14) (shapeCast S1x32 (m ((c : Thread nD τ).loc main_arg5) : FVec Ideal S32 .f32) shapeCasts_S32_S1x32) := by
  dsimp only [Gen.V, Gen.V0]
  simp only [Gen.hostOps0, Gen.hostOps0_1, Gen.hostOps0_2, Gen.hostOps0_3, List.flatten_cons, List.flatten_nil, List.append_nil, List.cons_append, List.nil_append]
  after_results
  all_goals rfl

theorem V12_term (c : Dev nD) : @Eq (FVec Ideal S32x1 .bf16) (V m c main_v12) (truncf (F := Ideal) .bf16 (m ((c : Thread nD τ).loc main_arg6) : FVec Ideal S32x1 .f32) bitsLt_bf16_f32) := by
  dsimp only [Gen.V, Gen.V0]
  simp only [Gen.hostOps0, Gen.hostOps0_1, Gen.hostOps0_2, Gen.hostOps0_3, List.flatten_cons, List.flatten_nil, List.append_nil, List.cons_append, List.nil_append]
  after_results
  all_goals rfl

theorem V15_term (c : Dev nD) : @Eq (FVec Ideal S1x1 .f32) (V m c main_v15) (shapeCast S1x1 (m ((c : Thread nD τ).loc main_arg7) : FVec Ideal S1 .f32) shapeCasts_S1_S1x1) := by
  dsimp only [Gen.V, Gen.V0]
  simp only [Gen.hostOps0, Gen.hostOps0_1, Gen.hostOps0_2, Gen.hostOps0_3, List.flatten_cons, List.flatten_nil, List.append_nil, List.cons_append, List.nil_append]
  after_results
  all_goals rfl

/-! ## The same arrays read at an index -/

/-- The start index the first gather reads for edge e is edge_index[0, e]. -/
theorem ids0_apply (E : IVec S2x1000000 32) (e : Fin 1000000) :
    broadcastInDim S1000000x1 ![0] bcast_S1000000_S1000000x1_0
      (shapeCast S1000000 (extractStridedSlice S1x1000000 ![0, 0] E slices_S2x1000000_S1x1000000_0_0) shapeCasts_S1x1000000_S1000000)
      (ix2 (n0 := 1000000) (n1 := 1) e ⟨0, Nat.one_pos⟩) = E (ix2 (0 : Fin 2) e) := by
  refine (broadcastInDim_apply _ bcast_S1000000_S1000000x1_0 _ _ (ix1 e) (fun a => match a with
    | ⟨0, _⟩ => by show e.val = if (1000000 : Nat) = 1 then 0 else e.val; rw [if_neg (by decide)])).trans ?_
  refine (shapeCast_apply _ shapeCasts_S1x1000000_S1000000 (ix1 e) (ix2 (0 : Fin 1) e)
    (by rewrite [Shape.rowMajor_val_two, Shape.rowMajor_val_one]; show 0 * 1000000 + e.val = e.val; omega)).trans ?_
  exact extractStridedSlice_apply ![0, 0] E slices_S2x1000000_S1x1000000_0_0 (ix2 (0 : Fin 1) e) (ix2 (0 : Fin 2) e) (fun a => match a with
    | ⟨0, _⟩ => by show 0 = 0 + 0; rfl
    | ⟨1, _⟩ => by show e.val = 0 + e.val; omega)

/-- The start index the second gather reads for edge e is edge_index[1, e]. -/
theorem ids1_apply (E : IVec S2x1000000 32) (e : Fin 1000000) :
    broadcastInDim S1000000x1 ![0] bcast_S1000000_S1000000x1_0
      (shapeCast S1000000 (extractStridedSlice S1x1000000 ![1, 0] E slices_S2x1000000_S1x1000000_1_0) shapeCasts_S1x1000000_S1000000)
      (ix2 (n0 := 1000000) (n1 := 1) e ⟨0, Nat.one_pos⟩) = E (ix2 (1 : Fin 2) e) := by
  refine (broadcastInDim_apply _ bcast_S1000000_S1000000x1_0 _ _ (ix1 e) (fun a => match a with
    | ⟨0, _⟩ => by show e.val = if (1000000 : Nat) = 1 then 0 else e.val; rw [if_neg (by decide)])).trans ?_
  refine (shapeCast_apply _ shapeCasts_S1x1000000_S1000000 (ix1 e) (ix2 (0 : Fin 1) e)
    (by rewrite [Shape.rowMajor_val_two, Shape.rowMajor_val_one]; show 0 * 1000000 + e.val = e.val; omega)).trans ?_
  exact extractStridedSlice_apply ![1, 0] E slices_S2x1000000_S1x1000000_1_0 (ix2 (0 : Fin 1) e) (ix2 (1 : Fin 2) e) (fun a => match a with
    | ⟨0, _⟩ => by show 1 = 1 + 0; rfl
    | ⟨1, _⟩ => by show e.val = 0 + e.val; omega)

/-- Row e of the first endpoint array is the feature row of the node edge_index[0, e] names. -/
theorem V5_apply (c : Dev nD) (e : Fin 1000000) (l : Fin 128) :
    @Eq EReal (V m c main_v5 (ix2 e l)) ((m ((c : Thread nD τ).loc main_arg0) : FVec Ideal S100000x128 .f32) (ix2 (nodeRow ((m ((c : Thread nD τ).loc main_arg1) : IVec S2x1000000 32) (ix2 (0 : Fin 2) e))) l)) := by
  rw [V5_term m c, Cert.Lib.RowGather.rowGather_apply gather_S100000x128_S1000000x1_S1000000x128_1_0_n_n_0_1_1128
    rfl rfl rfl rfl rfl rfl rfl _ _ e l (by decide)]
  refine congrArg (fun r : Fin 100000 => (m ((c : Thread nD τ).loc main_arg0) : FVec Ideal S100000x128 .f32) (ix2 r l)) (Fin.ext ?_)
  exact congrArg (fun w : BitVec 32 => min w.toInt.toNat 99999) (ids0_apply (m ((c : Thread nD τ).loc main_arg1) : IVec S2x1000000 32) e)

/-- Row e of the second endpoint array is the feature row of the node edge_index[1, e] names. -/
theorem V6_apply (c : Dev nD) (e : Fin 1000000) (l : Fin 128) :
    @Eq EReal (V m c main_v6 (ix2 e l)) ((m ((c : Thread nD τ).loc main_arg0) : FVec Ideal S100000x128 .f32) (ix2 (nodeRow ((m ((c : Thread nD τ).loc main_arg1) : IVec S2x1000000 32) (ix2 (1 : Fin 2) e))) l)) := by
  rw [V6_term m c, Cert.Lib.RowGather.rowGather_apply gather_S100000x128_S1000000x1_S1000000x128_1_0_n_n_0_1_1128
    rfl rfl rfl rfl rfl rfl rfl _ _ e l (by decide)]
  refine congrArg (fun r : Fin 100000 => (m ((c : Thread nD τ).loc main_arg0) : FVec Ideal S100000x128 .f32) (ix2 r l)) (Fin.ext ?_)
  exact congrArg (fun w : BitVec 32 => min w.toInt.toNat 99999) (ids1_apply (m ((c : Thread nD τ).loc main_arg1) : IVec S2x1000000 32) e)

/-- The first half of W1: rows 0 … 127. -/
theorem V8_apply (c : Dev nD) (l : Fin 128) (j : Fin 64) :
    @Eq EReal (V m c main_v8 (ix2 l j)) ((m ((c : Thread nD τ).loc main_arg2) : FVec Ideal S256x64 .f32) (ix2 (⟨l.val, by omega⟩ : Fin 256) j)) := by
  rw [V8_term m c]
  exact extractStridedSlice_apply ![0, 0] (m ((c : Thread nD τ).loc main_arg2) : FVec Ideal S256x64 .f32) slices_S256x64_S128x64_0_0 (ix2 l j) (ix2 (⟨l.val, by omega⟩ : Fin 256) j) (fun a => match a with
    | ⟨0, _⟩ => by show l.val = 0 + l.val; omega
    | ⟨1, _⟩ => by show j.val = 0 + j.val; omega)

/-- The second half of W1: rows 128 … 255. -/
theorem V10_apply (c : Dev nD) (l : Fin 128) (j : Fin 64) :
    @Eq EReal (V m c main_v10 (ix2 l j)) ((m ((c : Thread nD τ).loc main_arg2) : FVec Ideal S256x64 .f32) (ix2 (⟨128 + l.val, by omega⟩ : Fin 256) j)) := by
  rw [V10_term m c]
  exact extractStridedSlice_apply ![128, 0] (m ((c : Thread nD τ).loc main_arg2) : FVec Ideal S256x64 .f32) slices_S256x64_S128x64_128_0 (ix2 l j) (ix2 (⟨128 + l.val, by omega⟩ : Fin 256) j) (fun a => match a with
    | ⟨0, _⟩ => by show 128 + l.val = 128 + l.val; rfl
    | ⟨1, _⟩ => by show j.val = 0 + j.val; omega)

/-- b1 as a row. -/
theorem V13_apply (c : Dev nD) (j : Fin 64) : @Eq EReal (V m c main_v13 (ix2 (0 : Fin 1) j)) ((m ((c : Thread nD τ).loc main_arg3) : FVec Ideal S64 .f32) (ix1 j)) := by
  rw [V13_term m c]
  exact shapeCast_apply _ shapeCasts_S64_S1x64 (ix2 (0 : Fin 1) j) (ix1 j)
    (by rewrite [Shape.rowMajor_val_two, Shape.rowMajor_val_one]; show j.val = 0 * 64 + j.val; omega)

/-- W2. -/
theorem V11_apply (c : Dev nD) (j : Fin 64) (k : Fin 32) : @Eq EReal (V m c main_v11 (ix2 j k)) ((m ((c : Thread nD τ).loc main_arg4) : FVec Ideal S64x32 .f32) (ix2 j k)) := by
  rw [V11_term m c]; rfl

/-- b2 as a row. -/
theorem V14_apply (c : Dev nD) (k : Fin 32) : @Eq EReal (V m c main_v14 (ix2 (0 : Fin 1) k)) ((m ((c : Thread nD τ).loc main_arg5) : FVec Ideal S32 .f32) (ix1 k)) := by
  rw [V14_term m c]
  exact shapeCast_apply _ shapeCasts_S32_S1x32 (ix2 (0 : Fin 1) k) (ix1 k)
    (by rewrite [Shape.rowMajor_val_two, Shape.rowMajor_val_one]; show k.val = 0 * 32 + k.val; omega)

/-- W3. -/
theorem V12_apply (c : Dev nD) (k : Fin 32) : @Eq EReal (V m c main_v12 (ix2 k (0 : Fin 1))) ((m ((c : Thread nD τ).loc main_arg6) : FVec Ideal S32x1 .f32) (ix2 k (0 : Fin 1))) := by
  rw [V12_term m c]; rfl

/-- b3 as a one-entry row. -/
theorem V15_apply (c : Dev nD) : @Eq EReal (V m c main_v15 (ix2 (0 : Fin 1) (0 : Fin 1))) ((m ((c : Thread nD τ).loc main_arg7) : FVec Ideal S1 .f32) (ix1 (0 : Fin 1))) := by
  rw [V15_term m c]
  exact shapeCast_apply _ shapeCasts_S1_S1x1 (ix2 (0 : Fin 1) (0 : Fin 1)) (ix1 (0 : Fin 1))
    (by rewrite [Shape.rowMajor_val_two, Shape.rowMajor_val_one]; show 0 = 0 * 1 + 0; rfl)

end Cert.LinkScore.Kern

end
-- ==== Proof.KernelRun.lean ====
/-
  The kernel program's run, read: its result is the scores of the argument arrays.

  The result vector is the flattened column the region leaves (KernelScores.lean), and the arrays the region finds are
  the gathered endpoint rows, the halves of W1 and the biases as rows (HostBefore.lean): entry e of the result is the
  perceptron's score of the feature rows of the two nodes edge e names, which is Spec.lean's scores.
-/
import proofs.«420939_j89644557402729_3_alg».proof.Proof.KernelScores
import proofs.«420939_j89644557402729_3_alg».proof.Proof.HostBefore

set_option maxRecDepth 16384

noncomputable section

namespace Cert.LinkScore.Kern

open Idealize.ShloMosaic Idealize.ShloMosaic.TcCoe Idealize.ShloMosaic.ValueIdx Idealize.SL.Sem
open Cert.KernelIdeal Cert.KernelIdeal.Gen Cert.LinkScore

variable (m : (ℓ : Loc nD τ sig) → Buf (Elt Ideal) ℓ) (ρ : Dev nD → PrngReg)

/-- Row e of the column over the arrays the region finds is the score of edge e over the argument arrays. -/
theorem col_eq (c : Dev nD) (e : Fin 1000000) :
    colScores (V m c main_v5) (V m c main_v6) (V m c main_v8) (V m c main_v10) (V m c main_v13) (V m c main_v11) (V m c main_v14) (V m c main_v12) (V m c main_v15) (ix2 e (0 : Fin 1))
      = scores (m ((c : Thread nD τ).loc main_arg0) : FVec Ideal S100000x128 .f32) (m ((c : Thread nD τ).loc main_arg1) : IVec S2x1000000 32) (m ((c : Thread nD τ).loc main_arg2) : FVec Ideal S256x64 .f32) (m ((c : Thread nD τ).loc main_arg3) : FVec Ideal S64 .f32) (m ((c : Thread nD τ).loc main_arg4) : FVec Ideal S64x32 .f32) (m ((c : Thread nD τ).loc main_arg5) : FVec Ideal S32 .f32) (m ((c : Thread nD τ).loc main_arg6) : FVec Ideal S32x1 .f32) (m ((c : Thread nD τ).loc main_arg7) : FVec Ideal S1 .f32) (ix1 e) := by
  unfold colScores scores
  exact pairScore_congr (funext fun l => V5_apply m c e l) (funext fun l => V6_apply m c e l)
    (funext fun l => funext fun j => V8_apply m c l j) (funext fun l => funext fun j => V10_apply m c l j)
    (funext fun j => V13_apply m c j) (funext fun j => funext fun k => V11_apply m c j k)
    (funext fun k => V14_apply m c k) (funext fun k => V12_apply m c k) (V15_apply m c)

/-- THE RUN: every weakly fair execution ends with the result vector at the scores and the arguments unchanged. -/
theorem run : θ_run defs (onTc (τ := τ) (main (F := Ideal))) ⟨m, fun _ => 0, ρ⟩ (fun r => ∀ c : Dev nD,
      r.2.mem ((c.tc : Thread nD τ).loc main_v17) = scores (m ((c : Thread nD τ).loc main_arg0) : FVec Ideal S100000x128 .f32) (m ((c : Thread nD τ).loc main_arg1) : IVec S2x1000000 32) (m ((c : Thread nD τ).loc main_arg2) : FVec Ideal S256x64 .f32) (m ((c : Thread nD τ).loc main_arg3) : FVec Ideal S64 .f32) (m ((c : Thread nD τ).loc main_arg4) : FVec Ideal S64x32 .f32) (m ((c : Thread nD τ).loc main_arg5) : FVec Ideal S32 .f32) (m ((c : Thread nD τ).loc main_arg6) : FVec Ideal S32x1 .f32) (m ((c : Thread nD τ).loc main_arg7) : FVec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
      (((h c).2 main_v17 (Pipeline.mem_restRefs_of main_v17 (by decide) (by decide))).trans (tail_eq m c)).trans
        (funext fun i => by
          obtain ⟨e, rfl⟩ : ∃ e : Fin 1000000, i = ix1 e := ⟨i 0, eq_ix1 i⟩
          exact col_eq m c e),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.LinkScore.Kern

end
-- ==== Proof.RefValue.lean ====
/-
  The reference program's result is the scores.

  The reference reads a node id the way array indexing does: a negative word w is first replaced by w + 100000, and the
  gather then clamps. For a non-negative word the replacement does nothing, so the row read is the word clamped into the
  table (Spec.lean, nodeRow). The rest is the perceptron over the concatenated row, whose first layer splits into the
  two halves of W1 (sum_halves), and the logistic written out as 1 / (1 + exp (−x)).
-/
import proofs.«420939_j89644557402729_3_alg».proof.Proof.Gen.ReferenceIdeal.Read
import proofs.«420939_j89644557402729_3_alg».proof.Proof.Spec
import proofs.«420939_j89644557402729_3_alg».proof.Proof.LibRowGather
import Idealize.ShloMosaic.Lib.Pipeline.Value
import Idealize.ShloMosaic.Lib.ValueLayout
import Idealize.ShloMosaic.Lib.IdealHost

noncomputable section

open scoped BigOperators

namespace Cert.LinkScore.Ref

open Idealize.ShloMosaic Idealize.ShloMosaic.ValueIdx Cert.ReferenceIdeal Cert.ReferenceIdeal.Read Cert.LinkScore

/-! ## The node ids -/

/-- A word that is non-negative read signed is not below zero. -/
theorem cmpi_slt_zero_of_nonneg (w : BitVec 32) (h : 0 ≤ w.toInt) : IntOp.cmpi .slt w 0#32 = 0#1 := by
  have hs : w.slt 0#32 = false := by
    rw [BitVec.slt, decide_eq_false_iff_not, BitVec.toInt_zero]
    exact not_lt.mpr h
  unfold IntOp.cmpi
  rw [hs]
  rfl

/-- Where the first slice, reshaped, reads the edge array: row 0, column e. -/
theorem idx_v0_v1 (e : Fin 1000000) : idx_main_v0 (idx_main_v1 (ix1 e)) = ix2 (0 : Fin 2) e := by
  funext a
  match a with
  | ⟨0, _⟩ => rfl
  | ⟨1, _⟩ => exact Fin.ext (Nat.mod_eq_of_lt e.isLt)

/-- Where the second slice, reshaped, reads the edge array: row 1, column e. -/
theorem idx_v9_v10 (e : Fin 1000000) : idx_main_v9 (idx_main_v10 (ix1 e)) = ix2 (1 : Fin 2) e := by
  funext a
  match a with
  | ⟨0, _⟩ => rfl
  | ⟨1, _⟩ => exact Fin.ext (Nat.mod_eq_of_lt e.isLt)

/-- The first endpoint's id as the reference normalises it is the word itself. -/
theorem v6_eq (x1 : IVec S2x1000000 32) (hpos : ∀ (s : Fin 2) (e : Fin 1000000), 0 ≤ (x1 (ix2 s e)).toInt)
    (e : Fin 1000000) : val_main_v6 (F := Ideal) x1 (ix1 e) = x1 (ix2 (0 : Fin 2) e) := by
  rw [val_main_v6_apply, val_main_v3_apply, val_main_v2_apply, val_main_c_apply, val_main_v1_apply, val_main_v0_apply,
    idx_v0_v1, cmpi_slt_zero_of_nonneg _ (hpos 0 e), select_zero]

/-- The second endpoint's id as the reference normalises it is the word itself. -/
theorem v15_eq (x1 : IVec S2x1000000 32) (hpos : ∀ (s : Fin 2) (e : Fin 1000000), 0 ≤ (x1 (ix2 s e)).toInt)
    (e : Fin 1000000) : val_main_v15 (F := Ideal) x1 (ix1 e) = x1 (ix2 (1 : Fin 2) e) := by
  rw [val_main_v15_apply, val_main_v12_apply, val_main_v11_apply, val_main_c_1_apply, val_main_v10_apply, val_main_v9_apply,
    idx_v9_v10, cmpi_slt_zero_of_nonneg _ (hpos 1 e), select_zero]

/-! ## The gathered rows -/

/-- The start index read for edge e is the normalised id of edge e. -/
theorem idx_v7 (e : Fin 1000000) : idx_main_v7 (ix2 (n0 := 1000000) (n1 := 1) e ⟨0, Nat.one_pos⟩) = ix1 e := by
  funext a
  match a with
  | ⟨0, _⟩ => rfl

/-- The second gather's start index for edge e is the second normalised id of edge e. -/
theorem idx_v16 (e : Fin 1000000) : idx_main_v16 (ix2 (n0 := 1000000) (n1 := 1) e ⟨0, Nat.one_pos⟩) = ix1 e := by
  funext a
  match a with
  | ⟨0, _⟩ => rfl

/-- The first gather reads, at (e, k), the feature row of the first endpoint of edge e at column k. -/
theorem v8_eq (x0 : FVec Ideal S100000x128 .f32) (x1 : IVec S2x1000000 32)
    (hpos : ∀ (s : Fin 2) (e : Fin 1000000), 0 ≤ (x1 (ix2 s e)).toInt) (e : Fin 1000000) (k : Fin 128) :
    val_main_v8 (F := Ideal) x0 x1 (ix2 e k) = x0 (ix2 (nodeRow (x1 (ix2 (0 : Fin 2) e))) k) := by
  have hw : val_main_v7 (F := Ideal) x1 (ix2 (n0 := 1000000) (n1 := 1) e ⟨0, Nat.one_pos⟩) = x1 (ix2 (0 : Fin 2) e) := by
    rw [val_main_v7_apply, idx_v7, v6_eq x1 hpos e]
  unfold val_main_v8
  rw [Cert.Lib.RowGather.rowGather_apply gather_S100000x128_S1000000x1_S1000000x128_1_0_n_n_0_1_1128
    rfl rfl rfl rfl rfl rfl rfl x0 (val_main_v7 (F := Ideal) x1) e k (by decide)]
  refine congrArg (fun r : Fin 100000 => x0 (ix2 r k)) (Fin.ext ?_)
  exact congrArg (fun w : BitVec 32 => min w.toInt.toNat 99999) hw

/-- The second gather reads, at (e, k), the feature row of the second endpoint of edge e at column k. -/
theorem v17_eq (x0 : FVec Ideal S100000x128 .f32) (x1 : IVec S2x1000000 32)
    (hpos : ∀ (s : Fin 2) (e : Fin 1000000), 0 ≤ (x1 (ix2 s e)).toInt) (e : Fin 1000000) (k : Fin 128) :
    val_main_v17 (F := Ideal) x0 x1 (ix2 e k) = x0 (ix2 (nodeRow (x1 (ix2 (1 : Fin 2) e))) k) := by
  have hw : val_main_v16 (F := Ideal) x1 (ix2 (n0 := 1000000) (n1 := 1) e ⟨0, Nat.one_pos⟩) = x1 (ix2 (1 : Fin 2) e) := by
    rw [val_main_v16_apply, idx_v16, v15_eq x1 hpos e]
  unfold val_main_v17
  rw [Cert.Lib.RowGather.rowGather_apply gather_S100000x128_S1000000x1_S1000000x128_1_0_n_n_0_1_1128
    rfl rfl rfl rfl rfl rfl rfl x0 (val_main_v16 (F := Ideal) x1) e k (by decide)]
  refine congrArg (fun r : Fin 100000 => x0 (ix2 r k)) (Fin.ext ?_)
  exact congrArg (fun w : BitVec 32 => min w.toInt.toNat 99999) hw

/-! ## The concatenated row -/

/-- A column below 128 of the concatenated row is that column of the first endpoint's row. -/
theorem v18_left (x0 : FVec Ideal S100000x128 .f32) (x1 : IVec S2x1000000 32) (e : Fin 1000000) (l : Fin 128) :
    val_main_v18 (F := Ideal) x0 x1 (ix2 e (⟨l.val, by omega⟩ : Fin 256)) = val_main_v8 (F := Ideal) x0 x1 (ix2 e l) := by
  unfold val_main_v18
  exact concatenate_pair_apply_left (t := S1000000x256) (s₁ := S1000000x128) (s₂ := S1000000x128) (1 : Fin 2) _ _ _
    (ix2 e (⟨l.val, by omega⟩ : Fin 256)) rfl (ix2 e l) (fun b => by
    match b with
    | ⟨0, _⟩ => rfl
    | ⟨1, _⟩ => rfl)

/-- A column from 128 on of the concatenated row is the column 128 less of the second endpoint's row. -/
theorem v18_right (x0 : FVec Ideal S100000x128 .f32) (x1 : IVec S2x1000000 32) (e : Fin 1000000) (l : Fin 128) :
    val_main_v18 (F := Ideal) x0 x1 (ix2 e (⟨128 + l.val, by omega⟩ : Fin 256)) = val_main_v17 (F := Ideal) x0 x1 (ix2 e l) := by
  unfold val_main_v18
  exact concatenate_pair_apply_right (t := S1000000x256) (s₁ := S1000000x128) (s₂ := S1000000x128) (1 : Fin 2) _ _ _
    (ix2 e (⟨128 + l.val, by omega⟩ : Fin 256)) rfl rfl (ix2 e l)
    (fun b hb => by
      match b with
      | ⟨0, _⟩ => rfl
      | ⟨1, _⟩ => exact absurd rfl hb)
    (Nat.add_comm _ _)

/-! ## The layers -/

/-- The first product at (e, j) reads the concatenated row of edge e at column k. -/
theorem lidx_v19 (e : Fin 1000000) (j : Fin 64) (k : Fin 256) : lidx_main_v19 (ix2 e j) k = ix2 e k := by
  funext a
  match a with
  | ⟨0, _⟩ => rfl
  | ⟨1, _⟩ => rfl

/-- The first product at (e, j) reads W1 at (k, j). -/
theorem ridx_v19 (e : Fin 1000000) (j : Fin 64) (k : Fin 256) : ridx_main_v19 (ix2 e j) k = ix2 k j := by
  funext a
  match a with
  | ⟨0, _⟩ => rfl
  | ⟨1, _⟩ => rfl

/-- The first product at (e, j): the sum over the 256 columns of the concatenated row, split into its halves. -/
theorem v19_eq (x0 : FVec Ideal S100000x128 .f32) (x1 : IVec S2x1000000 32) (x2 : FVec Ideal S256x64 .f32)
    (hpos : ∀ (s : Fin 2) (e : Fin 1000000), 0 ≤ (x1 (ix2 s e)).toInt) (e : Fin 1000000) (j : Fin 64) :
    val_main_v19 (F := Ideal) x0 x1 x2 (ix2 e j)
      = (∑ l : Fin 128, x0 (ix2 (nodeRow (x1 (ix2 (0 : Fin 2) e))) l) * x2 (ix2 (⟨l.val, by omega⟩ : Fin 256) j))
        + ∑ l : Fin 128, x0 (ix2 (nodeRow (x1 (ix2 (1 : Fin 2) e))) l) * x2 (ix2 (⟨128 + l.val, by omega⟩ : Fin 256) j) := by
  rw [val_main_v19_apply, sum_halves]
  congr 1
  · refine Finset.sum_congr rfl fun l _ => ?_
    rw [lidx_v19, ridx_v19, v18_left, v8_eq x0 x1 hpos]
  · refine Finset.sum_congr rfl fun l _ => ?_
    rw [lidx_v19, ridx_v19, v18_right, v17_eq x0 x1 hpos]

/-- The first bias, broadcast twice, is read at j. -/
theorem idx_v20_v21 (e : Fin 1000000) (j : Fin 64) : idx_main_v20 (idx_main_v21 (ix2 e j)) = ix1 j := by
  funext a
  match a with
  | ⟨0, _⟩ => rfl

/-- The first hidden layer at (e, j): the first product plus the bias, cut off below at zero. -/
theorem v23_eq (x0 : FVec Ideal S100000x128 .f32) (x1 : IVec S2x1000000 32) (x2 : FVec Ideal S256x64 .f32)
    (x3 : FVec Ideal S64 .f32) (hpos : ∀ (s : Fin 2) (e : Fin 1000000), 0 ≤ (x1 (ix2 s e)).toInt) (e : Fin 1000000) (j : Fin 64) :
    val_main_v23 (F := Ideal) x0 x1 x2 x3 (ix2 e j)
      = max ((∑ l : Fin 128, x0 (ix2 (nodeRow (x1 (ix2 (0 : Fin 2) e))) l) * x2 (ix2 (⟨l.val, by omega⟩ : Fin 256) j))
        + (∑ l : Fin 128, x0 (ix2 (nodeRow (x1 (ix2 (1 : Fin 2) e))) l) * x2 (ix2 (⟨128 + l.val, by omega⟩ : Fin 256) j))
        + x3 (ix1 j)) 0 := by
  rw [val_main_v23_apply, val_main_v22_apply, val_main_call0_v0_apply, val_main_call0_cst_apply, val_main_v21_apply,
    val_main_v20_apply, idx_v20_v21, v19_eq x0 x1 x2 hpos, Ideal.maximumf_def, Ideal.addf_def, Ideal.ofBits_def,
    Ideal.ofBits_zero_f32]

/-- The second product at (e, k) reads the first hidden layer of edge e at unit j. -/
theorem lidx_v24 (e : Fin 1000000) (k : Fin 32) (j : Fin 64) : lidx_main_v24 (ix2 e k) j = ix2 e j := by
  funext a
  match a with
  | ⟨0, _⟩ => rfl
  | ⟨1, _⟩ => rfl

/-- The second product at (e, k) reads W2 at (j, k). -/
theorem ridx_v24 (e : Fin 1000000) (k : Fin 32) (j : Fin 64) : ridx_main_v24 (ix2 e k) j = ix2 j k := by
  funext a
  match a with
  | ⟨0, _⟩ => rfl
  | ⟨1, _⟩ => rfl

/-- The second bias, broadcast twice, is read at k. -/
theorem idx_v25_v26 (e : Fin 1000000) (k : Fin 32) : idx_main_v25 (idx_main_v26 (ix2 e k)) = ix1 k := by
  funext a
  match a with
  | ⟨0, _⟩ => rfl

/-- The second hidden layer at (e, k), over the first hidden layer. -/
theorem v28_eq (x0 : FVec Ideal S100000x128 .f32) (x1 : IVec S2x1000000 32) (x2 : FVec Ideal S256x64 .f32)
    (x3 : FVec Ideal S64 .f32) (x4 : FVec Ideal S64x32 .f32) (x5 : FVec Ideal S32 .f32) (e : Fin 1000000) (k : Fin 32) :
    val_main_v28 (F := Ideal) x0 x1 x2 x3 x4 x5 (ix2 e k)
      = max ((∑ j : Fin 64, val_main_v23 (F := Ideal) x0 x1 x2 x3 (ix2 e j) * x4 (ix2 j k)) + x5 (ix1 k)) 0 := by
  rw [val_main_v28_apply, val_main_v27_apply, val_main_call1_v0_apply, val_main_call1_cst_apply, val_main_v26_apply,
    val_main_v25_apply, idx_v25_v26, val_main_v24_apply, Ideal.maximumf_def, Ideal.addf_def, Ideal.ofBits_def,
    Ideal.ofBits_zero_f32]
  simp only [lidx_v24, ridx_v24]

/-- The last product at (e, 0) reads the second hidden layer of edge e at unit k. -/
theorem lidx_v29 (e : Fin 1000000) (k : Fin 32) :
    lidx_main_v29 (ix2 (n0 := 1000000) (n1 := 1) e ⟨0, Nat.one_pos⟩) k = ix2 e k := by
  funext a
  match a with
  | ⟨0, _⟩ => rfl
  | ⟨1, _⟩ => rfl

/-- The last product at (e, 0) reads W3 at (k, 0). -/
theorem ridx_v29 (e : Fin 1000000) (k : Fin 32) :
    ridx_main_v29 (ix2 (n0 := 1000000) (n1 := 1) e ⟨0, Nat.one_pos⟩) k = ix2 k (0 : Fin 1) := by
  funext a
  match a with
  | ⟨0, _⟩ => rfl
  | ⟨1, _⟩ => rfl

/-- The last bias, broadcast twice, is read at 0. -/
theorem idx_v30_v31 (e : Fin 1000000) :
    idx_main_v30 (idx_main_v31 (ix2 (n0 := 1000000) (n1 := 1) e ⟨0, Nat.one_pos⟩)) = ix1 (0 : Fin 1) := by
  funext a
  match a with
  | ⟨0, _⟩ => rfl

/-- The reshape to one axis reads edge e at (e, 0). -/
theorem idx_v33 (e : Fin 1000000) : idx_main_v33 (ix1 e) = ix2 (n0 := 1000000) (n1 := 1) e ⟨0, Nat.one_pos⟩ := by
  funext a
  match a with
  | ⟨0, _⟩ => exact Fin.ext (Nat.div_one _)
  | ⟨1, _⟩ => rfl

/-- The output unit before the logistic at edge e, over the second hidden layer. -/
theorem v33_eq (x0 : FVec Ideal S100000x128 .f32) (x1 : IVec S2x1000000 32) (x2 : FVec Ideal S256x64 .f32)
    (x3 : FVec Ideal S64 .f32) (x4 : FVec Ideal S64x32 .f32) (x5 : FVec Ideal S32 .f32) (x6 : FVec Ideal S32x1 .f32)
    (x7 : FVec Ideal S1 .f32) (e : Fin 1000000) :
    val_main_v33 (F := Ideal) x0 x1 x2 x3 x4 x5 x6 x7 (ix1 e)
      = (∑ k : Fin 32, val_main_v28 (F := Ideal) x0 x1 x2 x3 x4 x5 (ix2 e k) * x6 (ix2 k (0 : Fin 1))) + x7 (ix1 (0 : Fin 1)) := by
  rw [val_main_v33_apply, idx_v33, val_main_v32_apply, val_main_v31_apply, val_main_v30_apply, idx_v30_v31,
    val_main_v29_apply, Ideal.addf_def]
  simp only [lidx_v29, ridx_v29]

/-- With every node id non-negative, the reference's last stage is the scores. -/
theorem result_eq (x0 : FVec Ideal S100000x128 .f32) (x1 : IVec S2x1000000 32) (x2 : FVec Ideal S256x64 .f32)
    (x3 : FVec Ideal S64 .f32) (x4 : FVec Ideal S64x32 .f32) (x5 : FVec Ideal S32 .f32) (x6 : FVec Ideal S32x1 .f32)
    (x7 : FVec Ideal S1 .f32) (hpos : ∀ (s : Fin 2) (e : Fin 1000000), 0 ≤ (x1 (ix2 s e)).toInt) :
    val_main_v39 (F := Ideal) x0 x1 x2 x3 x4 x5 x6 x7 = scores x0 x1 x2 x3 x4 x5 x6 x7 := by
  funext i
  obtain ⟨e, rfl⟩ : ∃ e : Fin 1000000, i = ix1 e := ⟨i 0, eq_ix1 i⟩
  rw [val_main_v39_apply, val_main_v38_apply, val_main_cst_3_apply, val_main_v37_apply, val_main_v36_apply,
    val_main_cst_apply, val_main_v35_apply, val_main_v34_apply, v33_eq, Ideal.hostDivf_def, Ideal.addf_def,
    Ideal.hostUnary_exp_def, Ideal.hostNegf_def, Ideal.negf_def, Ideal.ofBits_def, Ideal.ofBits_one_f32]
  simp only [v28_eq, v23_eq x0 x1 x2 x3 hpos]
  rfl

end Cert.LinkScore.Ref

end
-- ==== Proof.PreDecode.lean ====
/-
  What the precondition says of the node ids.

  The precondition is a conjunction of eight tests over whole arrays; the last one is that every entry w of
  edge_index satisfies 0 ≤ w and w < 100000 as signed words. Only the lower bound is read here.
-/
import proofs.«420939_j89644557402729_3_alg».proof.Pre_finite_inputs
import proofs.«420939_j89644557402729_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.LinkScore.Pre

open Idealize.ShloMosaic Idealize.ShloMosaic.ValueIdx Cert.Pre_finite_inputs

instance : Subsingleton S_.Idx := ⟨fun a b => funext fun d => d.elim0⟩

/-- A word that passes the signed test 0 ≤ w is non-negative read signed. -/
theorem nonneg_of_sge (w : BitVec 32) (h : IntOp.cmpi .sge w 0#32 = 1#1) : 0 ≤ w.toInt := by
  unfold IntOp.cmpi at h
  have hs : (0#32).sle w = true := (StableHlo.Predicate.ofBool_eq_one_iff _).1 h
  rw [BitVec.sle, decide_eq_true_eq, BitVec.toInt_zero] at hs
  exact hs

/-- Under the precondition every node id is non-negative as a signed word. -/
theorem nonneg_of_pre [Cert.Pre_finite_inputs.Facts] (x0 : FVec Ideal S100000x128 .f32) (x1 : IVec S2x1000000 32)
    (x2 : FVec Ideal S256x64 .f32) (x3 : FVec Ideal S64 .f32) (x4 : FVec Ideal S64x32 .f32) (x5 : FVec Ideal S32 .f32)
    (x6 : FVec Ideal S32x1 .f32) (x7 : FVec Ideal S1 .f32)
    (h : Cert.Pre_finite_inputs.fn (F := Ideal) x0 x1 x2 x3 x4 x5 x6 x7 = fun _ => 1#1) :
    ∀ (s : Fin 2) (e : Fin 1000000), 0 ≤ (x1 (ix2 s e)).toInt := by
  intro s e
  have h0 := congrFun h ix0
  unfold Cert.Pre_finite_inputs.fn Cert.Pre_finite_inputs.fn_part1 Cert.Pre_finite_inputs.fn_part2 at h0
  dsimp only at h0
  have h1 := (IntOp.andi_eq_one.1 (show IntOp.andi _ _ = 1#1 from h0)).2
  have h2 := Host.reduce_andi_all _ _ _ _ ix0 h1 (ix2 s e)
  have h3 := (IntOp.andi_eq_one.1 (show IntOp.andi _ _ = 1#1 from h2)).1
  exact nonneg_of_sge _ h3

end Cert.LinkScore.Pre

end
-- ==== Proof.lean ====
/-
  Link scores: a three-layer perceptron over the feature rows of an edge's two endpoints.

  Both programs compute, for every edge e, logistic (W3ᵀ · relu (W2ᵀ · relu (W1ᵀ · (z[i], z[j]) + b1) + b2) + b3) with
  i = edge_index[0, e] and j = edge_index[1, e]: over the extended reals one function of the argument arrays
  (Proof/Spec.lean, scores).

  The kernel program gathers the two endpoint arrays on the host (a node id read signed and clamped into the table),
  cuts W1 into its two halves, and scores 8000 edges per grid point in four trips of 2000 rows; each trip's store is a
  restriction of one function of the block's row index, the four stores tile the block, the 125 blocks tile the result
  (Proof/Payload.lean, Proof/Pieces.lean, Proof/KernelScores.lean, Proof/HostBefore.lean, Proof/KernelRun.lean).

  The reference program first replaces a negative node id w by w + 100000, then gathers, concatenates the two rows and
  multiplies by the whole of W1. The two programs therefore read the same rows exactly where the replacement does
  nothing: for node ids that are non-negative, which the precondition states (Proof/PreDecode.lean). A sum over the
  256 columns of the concatenated row is the sum over its two halves, in any commutative monoid, so no finiteness of
  the features or weights is used (Proof/RefValue.lean).

  The change of float format on the way into each product is the identity on the extended reals, and the kernel's
  logistic is the reference's 1 / (1 + exp (−x)) by definition.
-/
import proofs.«420939_j89644557402729_3_alg».proof.Defs
import proofs.«420939_j89644557402729_3_alg».proof.Proof.Gen.Kernel
import proofs.«420939_j89644557402729_3_alg».proof.Proof.Gen.Kernel.Frame
import proofs.«420939_j89644557402729_3_alg».proof.Proof.Gen.KernelIdeal
import proofs.«420939_j89644557402729_3_alg».proof.Proof.Gen.KernelIdeal.Frame
import proofs.«420939_j89644557402729_3_alg».proof.Proof.Gen.ReferenceIdeal
import proofs.«420939_j89644557402729_3_alg».proof.Proof.Gen.ReferenceIdeal.Run
import proofs.«420939_j89644557402729_3_alg».proof.Proof.Gen.ReferenceIdeal.Read
import proofs.«420939_j89644557402729_3_alg».proof.Proof.Gen.Pre_finite_inputs
import proofs.«420939_j89644557402729_3_alg».proof.Proof.KernelRun
import proofs.«420939_j89644557402729_3_alg».proof.Proof.RefValue
import proofs.«420939_j89644557402729_3_alg».proof.Proof.PreDecode
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference program runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the scores of the argument arrays: the kernel program always, the reference program where
    every node id is non-negative, which the precondition says. -/
theorem algebraic : Cert.algebraic_KernelIdeal_ReferenceIdeal := by
  intro m ρ m' ρ' hpre hagree
  refine ⟨_, Cert.LinkScore.Kern.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.ReferenceIdeal.Read.val_main_v39_eq _ _ _ _ _ _ _ _).trans
    (Cert.LinkScore.Ref.result_eq _ _ _ _ _ _ _ _ (Cert.LinkScore.Pre.nonneg_of_pre _ _ _ _ _ _ _ _ (hpre c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
